-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x65536 : Shape := ⟨2, ![1024, 65536]⟩
abbrev S_ : Shape := ⟨0, ![]⟩

class Facts : Prop where
  bcast_S_S1024x65536 : S_.BroadcastsInDim S1024x65536 (![] : Fin 0 → Fin S1024x65536.rank)
  reducesTo_S1024x65536_S_d0_1 : S1024x65536.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : IVec S8192x1024 32) (main_arg1 : FVec F S1024x65536 .f32) : IVec S_ 1 :=
  let main_v0 : FVec F S1024x65536 .f32 := Host.absf main_arg1
  let main_cst : FVec F S_ .f32 := constant S_ .f32 0x7F800000#32
  let main_v1 : FVec F S1024x65536 .f32 := broadcastInDim S1024x65536 ![] bcast_S_S1024x65536 main_cst
  let main_v2 : IVec S1024x65536 1 := cmpf .olt main_v0 main_v1
  let main_c : IVec S_ 1 := constantI S_ 1 1#1
  let main_v3 : IVec S_ 1 := (fun x v => Host.reduce IntOp.andi x v reducesTo_S1024x65536_S_d0_1 h_S_) main_v2 main_c
  let main_c_0 : IVec S_ 32 := constantI S_ 32 0#32
  let main_v4 : IVec S8192x1024 32 := broadcastInDim S8192x1024 ![] bcast_S_S8192x1024 main_c_0
  let main_v5 : IVec S8192x1024 1 := cmpi .sge main_arg0 main_v4
  let main_c_1 : IVec S_ 32 := constantI S_ 32 65536#32
  let main_v6 : IVec S8192x1024 32 := broadcastInDim S8192x1024 ![] bcast_S_S8192x1024 main_c_1
  let main_v7 : IVec S8192x1024 1 := cmpi .slt main_arg0 main_v6
  let main_v8 : IVec S8192x1024 1 := andi main_v5 main_v7
  let main_c_2 : IVec S_ 1 := constantI S_ 1 1#1
  let main_v9 : IVec S_ 1 := (fun x v => Host.reduce IntOp.andi x v reducesTo_S8192x1024_S_d0_1 h_S_) main_v8 main_c_2
  let main_v10 : IVec S_ 1 := andi main_v3 main_v9
  main_v10
-- ==== Kernel.lean ====
abbrev S8192x1024 : Shape := ⟨2, ![8192, 1024]⟩
abbrev S1024x65536 : Shape := ⟨2, ![1024, 65536]⟩
abbrev S1024x8192 : Shape := ⟨2, ![1024, 8192]⟩
abbrev S1024x256x256 : Shape := ⟨3, ![1024, 256, 256]⟩
abbrev S8192 : Shape := ⟨1, ![8192]⟩
abbrev S8x1024 : Shape := ⟨2, ![8, 1024]⟩
abbrev S8x256x256 : Shape := ⟨3, ![8, 256, 256]⟩
abbrev S1024 : Shape := ⟨1, ![1024]⟩
abbrev S1x256 : Shape := ⟨2, ![1, 256]⟩
abbrev S1x1024 : Shape := ⟨2, ![1, 1024]⟩
abbrev S1x256x256 : Shape := ⟨3, ![1, 256, 256]⟩
abbrev S256x256 : Shape := ⟨2, ![256, 256]⟩
abbrev S1024x1 : Shape := ⟨2, ![1024, 1]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .i32⟩
  | .hbm, ⟨1, _⟩ => ⟨S1024x65536, .f32⟩
  | .hbm, ⟨2, _⟩ => ⟨S1024x8192, .i32⟩
  | .hbm, ⟨3, _⟩ => ⟨S1024x256x256, .f32⟩
  | .hbm, ⟨4, _⟩ => ⟨S8192, .f32⟩
  | .local _ .vmem, ⟨0, _⟩ => ⟨S8x1024, .i32⟩
  | .local _ .vmem, ⟨1, _⟩ => ⟨S8x1024, .i32⟩
  | .local _ .vmem, ⟨2, _⟩ => ⟨S8x256x256, .f32⟩
  | .local _ .vmem, ⟨3, _⟩ => ⟨S8x256x256, .f32⟩
  | .local _ .vmem, ⟨4, _⟩ => ⟨S1024, .f32⟩
  | .local _ .vmem, ⟨5, _⟩ => ⟨S1024, .f32⟩
  | .local _ .vmem, ⟨6, _⟩ => ⟨S1024, .f32⟩
  | _, _ => ⟨S8192x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 128], ![false, false]⟩

def k0_cond2 (i : grid0.Coords) : BitVec 1 :=
  let arg1 : BitVec 32 := BitVec.ofNat 32 (i 1).val
  let c127_i32 : BitVec 32 := 127#32
  let v248 : BitVec 1 := Scalar.cmpi .eq arg1 c127_i32
  let v249 : BitVec 32 := Scalar.extui v248
  let c0_i32_79 : BitVec 32 := 0#32
  let v250 : BitVec 1 := Scalar.cmpi .ne v249 c0_i32_79
  v250

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S8x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S8192x1024_S1024x8192_1_0 : S8192x1024.Transposes [1, 0] S1024x8192
  shapeCasts_S1024x65536_S1024x256x256 : S1024x65536.ShapeCasts S1024x256x256
  inb_S1024_S1024_0 : ∀ a, (![0] : Fin 1 → Nat) a + S1024.size a ≤ S1024.size a
  h_S1024 : 0 < S1024.numel
  shapeCasts_S1024_S1024 : S1024.ShapeCasts S1024
  iota_S1x256_d1_w32 : S1x256.Iotas .tc 32 [1]
  inb_S8x1024_S1x1024_0_0 : ∀ a, (![0, 0] : Fin 2 → Nat) a + S1x1024.size a ≤ S8x1024.size a
  h_S1x1024 : 0 < S1x1024.numel
  shapeCasts_S1x1024_S1024 : S1x1024.ShapeCasts S1024
  inb_S8x256x256_S1x256x256_0_0_0 : ∀ a, (![0, 0, 0] : Fin 3 → Nat) a + S1x256x256.size a ≤ S8x256x256.size a
  h_S1x256x256 : 0 < S1x256x256.numel
  shapeCasts_S1x256x256_S256x256 : S1x256x256.ShapeCasts S256x256
  bitsLt_bf16_f32 : FTy.bits .bf16 < FTy.bits .f32
  shapeCasts_S1024_S1024x1 : S1024.ShapeCasts S1024x1
  broadcasts_S1024x1_S1024x256 : S1024x1.Broadcasts S1024x256
  broadcasts_S1x256_S1024x256 : S1x256.Broadcasts S1024x256
  natLt_1_32 : 1 < 32
  reduces_S1024x256_S1024 : S1024x256.Reduces [1] S1024
  inb_S8x1024_S1x1024_1_0 : ∀ a, (![1, 0] : Fin 2 → Nat) a + S1x1024.size a ≤ S8x1024.size a
  inb_S8x256x256_S1x256x256_1_0_0 : ∀ a, (![1, 0, 0] : Fin 3 → Nat) a + S1x256x256.size a ≤ S8x256x256.size a
  inb_S8x1024_S1x1024_2_0 : ∀ a, (![2, 0] : Fin 2 → Nat) a + S1x1024.size a ≤ S8x1024.size a
  inb_S8x256x256_S1x256x256_2_0_0 : ∀ a, (![2, 0, 0] : Fin 3 → Nat) a + S1x256x256.size a ≤ S8x256x256.size a
  inb_S8x1024_S1x1024_3_0 : ∀ a, (![3, 0] : Fin 2 → Nat) a + S1x1024.size a ≤ S8x1024.size a
  inb_S8x256x256_S1x256x256_3_0_0 : ∀ a, (![3, 0, 0] : Fin 3 → Nat) a + S1x256x256.size a ≤ S8x256x256.size a
  inb_S8x1024_S1x1024_4_0 : ∀ a, (![4, 0] : Fin 2 → Nat) a + S1x1024.size a ≤ S8x1024.size a
  inb_S8x256x256_S1x256x256_4_0_0 : ∀ a, (![4, 0, 0] : Fin 3 → Nat) a + S1x256x256.size a ≤ S8x256x256.size a
  inb_S8x1024_S1x1024_5_0 : ∀ a, (![5, 0] : Fin 2 → Nat) a + S1x1024.size a ≤ S8x1024.size a
  inb_S8x256x256_S1x256x256_5_0_0 : ∀ a, (![5, 0, 0] : Fin 3 → Nat) a + S1x256x256.size a ≤ S8x256x256.size a
  inb_S8x1024_S1x1024_6_0 : ∀ a, (![6, 0] : Fin 2 → Nat) a + S1x1024.size a ≤ S8x1024.size a
  inb_S8x256x256_S1x256x256_6_0_0 : ∀ a, (![6, 0, 0] : Fin 3 → Nat) a + S1x256x256.size a ≤ S8x256x256.size a
  inb_S8x1024_S1x1024_7_0 : ∀ a, (![7, 0] : Fin 2 → Nat) a + S1x1024.size a ≤ S8x1024.size a
  inb_S8x256x256_S1x256x256_7_0_0 : ∀ a, (![7, 0, 0] : Fin 3 → Nat) a + S1x256x256.size a ≤ S8x256x256.size a
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S1024x8192.size a
  hwx0_0 : ∀ i : grid0.Coords, EltTy.bits .i32 = 32 ∨ (Rect.block (s := S1024x8192) S8x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S1024x256x256.size a
  hwx0_1 : ∀ i : grid0.Coords, EltTy.bits .f32 = 32 ∨ (Rect.block (s := S1024x256x256) S8x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .f32 = 32 ∨ (Rect.block (s := S8192) S1024.size (cc0_transform_2 i) (hinb0_2 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v0) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x65536 : Shape := ⟨2, ![1024, 65536]⟩
abbrev S1024 : Shape := ⟨1, ![1024]⟩
abbrev S1x1024 : Shape := ⟨2, ![1, 1024]⟩
abbrev S_ : Shape := ⟨0, ![]⟩
abbrev S8192x1024x1 : Shape := ⟨3, ![8192, 1024, 1]⟩
abbrev S8192x1024x2 : Shape := ⟨3, ![8192, 1024, 2]⟩
abbrev S8192 : Shape := ⟨1, ![8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .i32⟩
  | .hbm, ⟨1, _⟩ => ⟨S1024x65536, .f32⟩
  | .hbm, ⟨2, _⟩ => ⟨S1024, .i32⟩
  | .hbm, ⟨3, _⟩ => ⟨S1x1024, .i32⟩
  | .hbm, ⟨4, _⟩ => ⟨S_, .i32⟩
  | .hbm, ⟨5, _⟩ => ⟨S1x1024, .i32⟩
  | .hbm, ⟨6, _⟩ => ⟨S1x1024, .i1⟩
  | .hbm, ⟨7, _⟩ => ⟨S_, .i32⟩
  | .hbm, ⟨8, _⟩ => ⟨S1x1024, .i32⟩
  | .hbm, ⟨9, _⟩ => ⟨S1x1024, .i32⟩
  | .hbm, ⟨10, _⟩ => ⟨S1x1024, .i32⟩
  | .hbm, ⟨11, _⟩ => ⟨S_, .i32⟩
  | .hbm, ⟨12, _⟩ => ⟨S8192x1024, .i32⟩
  | .hbm, ⟨13, _⟩ => ⟨S8192x1024, .i1⟩
  | .hbm, ⟨14, _⟩ => ⟨S_, .i32⟩
  | .hbm, ⟨15, _⟩ => ⟨S8192x1024, .i32⟩
  | .hbm, ⟨16, _⟩ => ⟨S8192x1024, .i32⟩
  | .hbm, ⟨17, _⟩ => ⟨S8192x1024, .i32⟩
  | .hbm, ⟨18, _⟩ => ⟨S8192x1024, .i32⟩
  | .hbm, ⟨19, _⟩ => ⟨S8192x1024x1, .i32⟩
  | .hbm, ⟨20, _⟩ => ⟨S8192x1024x1, .i32⟩
  | .hbm, ⟨21, _⟩ => ⟨S8192x1024x2, .i32⟩
  | .hbm, ⟨22, _⟩ => ⟨S8192x1024, .f32⟩
  | .hbm, ⟨23, _⟩ => ⟨S_, .f32⟩
  | .hbm, ⟨24, _⟩ => ⟨S8192, .f32⟩
  | _, _ => ⟨S8192x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S_S8192x1024 : S_.BroadcastsInDim S8192x1024 (![] : Fin 0 → Fin S8192x1024.rank)
  bcast_S1x1024_S8192x1024_0_1 : S1x1024.BroadcastsInDim S8192x1024 (![0, 1] : Fin 2 → Fin S8192x1024.rank)
  bcast_S8192x1024_S8192x1024x1_0_1 : S8192x1024.BroadcastsInDim S8192x1024x1 (![0, 1] : Fin 2 → Fin S8192x1024x1.rank)
  concatenates_S8192x1024x1_S8192x1024x1_S8192x1024x2_d2 : Shape.Concatenates [S8192x1024x1, S8192x1024x1] S8192x1024x2 2
  reducesTo_S8192x1024_S8192_d1 : S8192x1024.ReducesTo [1] S8192
  h_S_ : 0 < S_.numel
  gather_S1024x65536_S8192x1024x2_S8192x1024_n_01_n_n_01_2_11_wf : GatherDims.WF S1024x65536 S8192x1024x2 S8192x1024 [] [0, 1] [] [0, 1] [] 2 ![1, 1]

variable [Facts₀]

def gather_S1024x65536_S8192x1024x2_S8192x1024_n_01_n_n_01_2_11 : GatherDims S1024x65536 S8192x1024x2 S8192x1024 where
  offsetDims := []
  collapsedSliceDims := [0, 1]
  operandBatchingDims := []
  startIndicesBatchingDims := []
  startIndexMap := [0, 1]
  indexVectorDim := 2
  sliceSizes := ![1, 1]
  wf := gather_S1024x65536_S8192x1024x2_S8192x1024_n_01_n_n_01_2_11_wf

class Facts : Prop extends Facts₀ where

variable [Facts]
-- ==== Proof.Digits.lean ====
/-
  Words: a fingerprint clamped into [0, 65535] and its two digits base 256.

  For a 32-bit word `d` read signed, `c = min 65535 (max 0 d)` is a word below 65536; its arithmetic shift right by 8
  is `c / 256` and its conjunction with 255 is `c % 256`, so `c = 256 · hi + lo` with both digits below 256. A word
  already in [0, 65536) is its own clamp.
-/
import Idealize.ShloMosaic.PureOps

namespace Cert.Digits

open Idealize.ShloMosaic

/-- The signed reading of a word from its unsigned one. -/
theorem toInt_cases (d : BitVec 32) :
    (d.toNat < 2147483648 ∧ d.toInt = (d.toNat : Int)) ∨ (2147483648 ≤ d.toNat ∧ d.toInt = (d.toNat : Int) - 4294967296) := by
  have h := BitVec.toInt_eq_toNat_cond d
  have hlt := d.isLt
  split at h <;> omega

/-- The clamp of any word is below 65536. -/
theorem clamp_lt (d : BitVec 32) : (IntOp.minsi 65535#32 (IntOp.maxsi 0#32 d)).toNat < 65536 := by
  unfold IntOp.minsi IntOp.maxsi
  have hd := toInt_cases d
  have h0 : (0#32 : BitVec 32).toInt = 0 := by decide
  have h1 : (65535#32 : BitVec 32).toInt = 65535 := by decide
  have n1 : (65535#32 : BitVec 32).toNat = 65535 := by decide
  have n0 : (0#32 : BitVec 32).toNat = 0 := by decide
  by_cases ha : d.slt 0#32 = true
  · rw [if_pos ha]
    by_cases hb : (65535#32 : BitVec 32).slt 0#32 = true
    · rw [if_pos hb, n1]; omega
    · rw [if_neg hb, n0]; omega
  · rw [if_neg ha]
    have ha' : ¬ d.toInt < 0 := by
      intro hlt; apply ha; rw [BitVec.slt]; simpa [h0] using hlt
    by_cases hb : (65535#32 : BitVec 32).slt d = true
    · rw [if_pos hb, n1]; omega
    · rw [if_neg hb]
      have hb' : ¬ (65535 : Int) < d.toInt := by
        intro hlt; apply hb; rw [BitVec.slt]; simpa [h1] using hlt
      omega

/-- A word in [0, 65536) is its own clamp. -/
theorem clamp_of_inRange (d : BitVec 32) (hl : 0 ≤ d.toInt) (hu : d.toInt < 65536) :
    IntOp.minsi 65535#32 (IntOp.maxsi 0#32 d) = d := by
  unfold IntOp.minsi IntOp.maxsi
  have h0 : (0#32 : BitVec 32).toInt = 0 := by decide
  have h1 : (65535#32 : BitVec 32).toInt = 65535 := by decide
  have ha : ¬ d.slt 0#32 = true := by
    rw [BitVec.slt]; simp [h0]; omega
  rw [if_neg ha]
  have hb : ¬ (65535#32 : BitVec 32).slt d = true := by
    rw [BitVec.slt]; simp [h1]; omega
  rw [if_neg hb]

/-- The high digit: the arithmetic shift right by 8 of a word below 65536 is its quotient by 256. -/
theorem hi_eq (c : BitVec 32) (h : c.toNat < 65536) :
    IntOp.shrsi .vector c 8#32 = BitVec.ofNat 32 (c.toNat / 256) := by
  unfold IntOp.shrsi
  rw [if_pos (by decide)]
  apply BitVec.eq_of_toNat_eq
  have hmsb : c.msb = false := by
    rw [BitVec.msb_eq_decide]; simp; omega
  show (c.sshiftRight (8#32 : BitVec 32).toNat).toNat = _
  have e8 : (8#32 : BitVec 32).toNat = 8 := by decide
  rw [e8, BitVec.sshiftRight_eq_of_msb_false hmsb, BitVec.toNat_ushiftRight, BitVec.toNat_ofNat,
    Nat.shiftRight_eq_div_pow]
  have : c.toNat / 256 < 4294967296 := by omega
  rw [Nat.mod_eq_of_lt (by omega)]

/-- The low digit: the conjunction of a word with 255 is its remainder by 256. -/
theorem lo_eq (c : BitVec 32) : IntOp.andi c 255#32 = BitVec.ofNat 32 (c.toNat % 256) := by
  unfold IntOp.andi
  apply BitVec.eq_of_toNat_eq
  rw [BitVec.toNat_and]
  have e : (255#32 : BitVec 32).toNat = 2 ^ 8 - 1 := by decide
  rw [e, Nat.and_two_pow_sub_one_eq_mod, BitVec.toNat_ofNat]
  omega

/-- Small numbers are told apart by their words. -/
theorem ofNat_inj_small {a b : Nat} (ha : a < 256) (hb : b < 256) (h : BitVec.ofNat 32 a = BitVec.ofNat 32 b) : a = b := by
  have := congrArg BitVec.toNat h
  rw [BitVec.toNat_ofNat, BitVec.toNat_ofNat, Nat.mod_eq_of_lt (by omega), Nat.mod_eq_of_lt (by omega)] at this
  exact this

end Cert.Digits
-- ==== Proof.Selection.lean ====
/-
  One neuron's term of the response, as the kernel computes it for a tile of 1024 samples.

  A fingerprint `d` is clamped into [0, 65535] and split into two digits base 256, `hi = d >> 8` and `lo = d & 255`;
  the neuron's row of the table is read as a 256 × 256 matrix `T` with `T[hi, lo] = row[256·hi + lo]`. The entry at
  the fingerprint is selected in two stages, each a sum against a 0/1 indicator:
      stage 1 (a matrix product)   sel[r, l] = ∑ h, [hi r = h] · T[h, l]   = T[hi r, l]
      stage 2 (a lane sum)         pick[r]   = ∑ l, sel[r, l] · [lo r = l] = T[hi r, lo r].
  Over the extended reals `0 · x = 0` and `1 · x = x` for EVERY `x`, infinite ones included, so each sum keeps exactly
  its one marked term: no finiteness of the table is used. The changes of float format on the way are the identity
  on extended reals.
-/
import proofs.«428686_j67147518705987_3_alg».proof.KernelIdeal
import Idealize.ShloMosaic.Lib.ValueIdx
import Idealize.ShloMosaic.Lib.ValueLayout
import Idealize.ShloMosaic.Lib.Pipeline.Value
import Idealize.ShloMosaic.PureOps.Ideal.Laws
import proofs.«428686_j67147518705987_3_alg».proof.Proof.Digits

noncomputable section

open scoped BigOperators

namespace Cert.KernelIdeal.Sel

open Cert.KernelIdeal Idealize.ShloMosaic Idealize.ShloMosaic.ValueIdx

variable {F : FTy → Type} [FloatOps F] [Facts]
open Facts₀ Facts

/-! ## The selection, as the body spells it (any float instance) -/

/-- A row of 1024 fingerprints, each clamped into [0, 65535]. -/
def clampRow (row : Vec F S1x1024 .i32) : IVec S1024 32 :=
  minsi (broadcast S1024 65535#32) (maxsi (broadcast S1024 0#32) (shapeCast S1024 row shapeCasts_S1x1024_S1024))

/-- The high digit base 256 of each clamped fingerprint. -/
def hiDigit (cl : IVec S1024 32) : IVec S1024 32 := shrsi cl (broadcast S1024 8#32)
/-- The low digit base 256 of each clamped fingerprint. -/
def loDigit (cl : IVec S1024 32) : IVec S1024 32 := andi cl (broadcast S1024 255#32)

/-- A digit per sample, repeated along 256 lanes. -/
def lanes (dg : IVec S1024 32) : IVec S1024x256 32 :=
  broadcastTo S1024x256 (shapeCast S1024x1 dg shapeCasts_S1024_S1024x1) broadcasts_S1024x1_S1024x256

/-- The indicator of "the sample's digit is the lane's number", as words 0 / 1. -/
def hot (iot : IVec S1x256 32) (dgl : IVec S1024x256 32) : IVec S1024x256 32 :=
  extui 32 (cmpi .eq dgl (broadcastTo S1024x256 iot broadcasts_S1x256_S1024x256)) natLt_1_32

/-- A neuron's row of the table as a 256 × 256 matrix, in the product's operand format. -/
def asMatrix (tb : Vec F S1x256x256 .f32) : FVec F S256x256 .bf16 :=
  truncf .bf16 (shapeCast S256x256 tb shapeCasts_S1x256x256_S256x256) bitsLt_bf16_f32

/-- The two stages from their ingredients: the high digit's indicator, the low digits, the matrix. -/
def selectOf (iot : IVec S1x256 32) (hiHot : IVec S1024x256 32) (lo : IVec S1024 32) (T : FVec F S256x256 .bf16) :
    FVec F S1024 .f32 :=
  multiReduction .add [1] S1024
    (mulf (matmul dot_S1024x256_S256x256_S1024x256_1_0_0_1_n_n none (truncf .bf16 (sitofp .f32 hiHot) bitsLt_bf16_f32) T
        (constant S1024x256 .f32 0x00000000#32))
      (sitofp .f32 (hot iot (lanes lo))))
    0x00000000#32 reduces_S1024x256_S1024 (.inl rfl) rfl

/-- One neuron's term for the tile: from the row of fingerprints and the neuron's row of the table. -/
def pick (iot : IVec S1x256 32) (row : Vec F S1x1024 .i32) (tb : Vec F S1x256x256 .f32) : FVec F S1024 .f32 :=
  selectOf iot (hot iot (lanes (hiDigit (clampRow row)))) (loDigit (clampRow row)) (asMatrix tb)

/-! ## Read at an index -/

/-- A digit repeated along the lanes reads, at sample `r` and any lane, the sample's digit. -/
theorem lanes_apply (dg : IVec S1024 32) (r : Fin 1024) (k : Fin 256) : lanes dg (ix2 r k) = dg (ix1 r) := by
  unfold lanes
  refine (broadcastTo_apply _ broadcasts_S1024x1_S1024x256 (ix2 r k) (ix2 r (0 : Fin 1)) fun a => ?_).trans ?_
  · match a with
    | ⟨0, _⟩ => show r.val = if (1024 : Nat) = 1 then 0 else r.val; rw [if_neg (by decide)]
    | ⟨1, _⟩ => show (0 : Nat) = if (1 : Nat) = 1 then 0 else k.val; rw [if_pos rfl]
  · exact shapeCast_apply dg shapeCasts_S1024_S1024x1 (ix2 r (0 : Fin 1)) (ix1 r) (by
      rw [Shape.rowMajor_val_one, Shape.rowMajor_val_two]
      show r.val = r.val * 1 + 0
      omega)

/-- The indicator's word at sample `r` and lane `k`: the comparison of the digit there with the lane's number. -/
theorem hot_apply (iot : IVec S1x256 32) (dgl : IVec S1024x256 32) (r : Fin 1024) (k : Fin 256) :
    hot iot dgl (ix2 r k) = (IntOp.cmpi .eq (dgl (ix2 r k)) (iot (ix2 (0 : Fin 1) k))).setWidth 32 := by
  unfold hot
  show (IntOp.cmpi .eq (dgl (ix2 r k)) (broadcastTo S1024x256 iot broadcasts_S1x256_S1024x256 (ix2 r k))).setWidth 32 = _
  rw [broadcastTo_1b_ab_apply]

/-- An equality test's 0 / 1 word, read as a signed integer, is 1 where the words are equal and 0 elsewhere. -/
theorem toInt_eq_word (x y : BitVec 32) : ((IntOp.cmpi .eq x y).setWidth 32).toInt = if x = y then 1 else 0 := by
  unfold IntOp.cmpi
  by_cases h : x = y
  · have hb : (x == y) = true := by simp [h]
    rw [if_pos h]
    show ((BitVec.ofBool (x == y)).setWidth 32).toInt = 1
    rw [hb]; decide
  · have hb : (x == y) = false := by simp [h]
    rw [if_neg h]
    show ((BitVec.ofBool (x == y)).setWidth 32).toInt = 0
    rw [hb]; decide

/-- So at the extended reals the indicator is 1 or 0. -/
theorem sitofp_eq_word (x y : BitVec 32) :
    (FloatOps.sitofp (F := Ideal) .f32 ((IntOp.cmpi .eq x y).setWidth 32) : EReal) = if x = y then 1 else 0 := by
  show (((((IntOp.cmpi .eq x y).setWidth 32).toInt : ℝ)) : EReal) = _
  rw [toInt_eq_word]
  split <;> simp

/-! ## The two sums read at a sample -/

/-- The lane sum at sample `r` runs over the indices `(r, k)`. -/
theorem lift_eq (r : Fin 1024) (k : Fin (S1024x256.size 1)) :
    reduces_S1024x256_S1024.lift (ix1 r) k = ix2 r (⟨k.val, k.isLt⟩ : Fin 256) := by
  funext c
  apply Fin.ext
  rw [Shape.Reduces.lift_val]
  unfold Shape.Reduces.liftVal
  match c with
  | ⟨0, _⟩ => rfl
  | ⟨1, _⟩ => rfl

/-- The product's left operand index: row of the output, position of the contraction. -/
theorem lhs_axis0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch from List.not_mem_nil),
    dif_pos (show (0 : Fin S1024x256.rank) ∈ dot_S1024x256_S256x256_S1024x256_1_0_0_1_n_n.lhsNonContracting from List.mem_singleton.mpr rfl)]
  rfl
theorem lhs_axis1 (i : S1024x256.Idx) (q : dot_S1024x256_S256x256_S1024x256_1_0_0_1_n_n.contr.Idx) :
    (dot_S1024x256_S256x256_S1024x256_1_0_0_1_n_n.lhsIdx i q 1).val = (q ⟨0, Nat.one_pos⟩).val :=
  dot_S1024x256_S256x256_S1024x256_1_0_0_1_n_n.lhsIdx_val_of_single rfl i q
/-- The right operand's: position of the contraction, column of the output. -/
theorem rhs_axis0 (i : S1024x256.Idx) (q : dot_S1024x256_S256x256_S1024x256_1_0_0_1_n_n.contr.Idx) :
    (dot_S1024x256_S256x256_S1024x256_1_0_0_1_n_n.rhsIdx i q 0).val = (q ⟨0, Nat.one_pos⟩).val :=
  dot_S1024x256_S256x256_S1024x256_1_0_0_1_n_n.rhsIdx_val_of_single rfl i q
theorem rhs_axis1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch from List.not_mem_nil),
    dif_pos (show (1 : Fin S256x256.rank) ∈ dot_S1024x256_S256x256_S1024x256_1_0_0_1_n_n.rhsNonContracting from List.mem_singleton.mpr rfl)]
  rfl

/-- The contraction's positions are the numbers below 256. -/
abbrev contr : dot_S1024x256_S256x256_S1024x256_1_0_0_1_n_n.contr.Idx ≃ Fin 256 :=
  contrEquiv1 dot_S1024x256_S256x256_S1024x256_1_0_0_1_n_n 256 rfl rfl

theorem lhs_at (r : Fin 1024) (l k : Fin 256) :
    dot_S1024x256_S256x256_S1024x256_1_0_0_1_n_n.lhsIdx (ix2 r l) (contr.symm k) = ix2 r k := by
  have hk := contrEquiv1_symm_val dot_S1024x256_S256x256_S1024x256_1_0_0_1_n_n 256 rfl rfl k
  exact funext fun a => Fin.ext (by
    match a with
    | ⟨0, _⟩ => exact lhs_axis0 _ _
    | ⟨1, _⟩ => exact (lhs_axis1 _ _).trans hk)

theorem rhs_at (r : Fin 1024) (l k : Fin 256) :
    dot_S1024x256_S256x256_S1024x256_1_0_0_1_n_n.rhsIdx (ix2 r l) (contr.symm k) = ix2 k l := by
  have hk := contrEquiv1_symm_val dot_S1024x256_S256x256_S1024x256_1_0_0_1_n_n 256 rfl rfl k
  exact funext fun a => Fin.ext (by
    match a with
    | ⟨0, _⟩ => exact (rhs_axis0 _ _).trans hk
    | ⟨1, _⟩ => exact rhs_axis1 _ _)

/-- STAGE 1 at the extended reals: against the indicator of the digit `h`, the product's row `r` is row `h` of the matrix. -/
theorem stage1_apply (hiHot : IVec S1024x256 32) (T : FVec Ideal S256x256 .bf16) (r : Fin 1024) (h l : Fin 256)
    (hH : ∀ k : Fin 256, hiHot (ix2 r k) = (IntOp.cmpi .eq (BitVec.ofNat 32 h.val) (BitVec.ofNat 32 k.val)).setWidth 32) :
    matmul (F := Ideal) dot_S1024x256_S256x256_S1024x256_1_0_0_1_n_n none
      (truncf .bf16 (sitofp .f32 hiHot) bitsLt_bf16_f32) T (constant S1024x256 .f32 0x00000000#32) (ix2 r l) = T (ix2 h l) := by
  simp only [matmul]
  rw [Ideal.matmul_constant_zero_apply, ← Equiv.sum_comp contr.symm, Finset.sum_eq_single h]
  · rw [lhs_at, rhs_at]
    show (FloatOps.sitofp (F := Ideal) .f32 (hiHot (ix2 r h)) : EReal) * T (ix2 h l) = _
    rw [hH, sitofp_eq_word, if_pos rfl, one_mul]
  · intro k _ hk
    rw [lhs_at, rhs_at]
    show (FloatOps.sitofp (F := Ideal) .f32 (hiHot (ix2 r k)) : EReal) * T (ix2 k l) = 0
    rw [hH, sitofp_eq_word, if_neg (fun e => hk (Fin.ext (Cert.Digits.ofNat_inj_small h.isLt k.isLt e)).symm), zero_mul]
  · intro hn; exact absurd (Finset.mem_univ _) hn

/-- BOTH STAGES at the extended reals: with high digit `h` and low digit `l` at sample `r`, the selection is the matrix at `(h, l)`. -/
theorem selectOf_apply (iot : IVec S1x256 32) (hiot : ∀ k : Fin 256, iot (ix2 (0 : Fin 1) k) = BitVec.ofNat 32 k.val)
    (hiHot : IVec S1024x256 32) (lo : IVec S1024 32) (T : FVec Ideal S256x256 .bf16) (r : Fin 1024) (h l : Fin 256)
    (hH : ∀ k : Fin 256, hiHot (ix2 r k) = (IntOp.cmpi .eq (BitVec.ofNat 32 h.val) (BitVec.ofNat 32 k.val)).setWidth 32)
    (hl : lo (ix1 r) = BitVec.ofNat 32 l.val) :
    selectOf (F := Ideal) iot hiHot lo T (ix1 r) = T (ix2 h l) := by
  have hw : ∀ k : Fin 256, (sitofp (F := Ideal) .f32 (hot iot (lanes lo)) : FVec Ideal S1024x256 .f32) (ix2 r k)
      = if BitVec.ofNat 32 l.val = BitVec.ofNat 32 k.val then 1 else 0 := fun k => by
    show (FloatOps.sitofp (F := Ideal) .f32 (hot iot (lanes lo) (ix2 r k)) : EReal) = _
    rw [hot_apply, lanes_apply, hl, hiot, sitofp_eq_word]
  unfold selectOf
  refine (Ideal.multiReduction_add_single _ 0x00000000#32 reduces_S1024x256_S1024 (.inl rfl) rfl (ix1 r)).trans ?_
  rw [Finset.sum_eq_single (⟨l.val, l.isLt⟩ : Fin (S1024x256.size 1))]
  · rw [lift_eq, mulf_apply, hw, if_pos rfl, mul_one]
    exact stage1_apply hiHot T r h l hH
  · intro k _ hk
    have hkl : ¬ BitVec.ofNat 32 l.val = BitVec.ofNat 32 k.val := fun e =>
      hk (Fin.ext (Cert.Digits.ofNat_inj_small l.isLt k.isLt e).symm)
    rw [lift_eq, mulf_apply, hw, if_neg hkl, mul_zero]
  · intro hn; exact absurd (Finset.mem_univ _) hn

/-- ONE NEURON'S TERM at the extended reals: at sample `r` the neuron's row of the table, as a matrix, at the two digits
    of the clamped fingerprint. -/
theorem pick_apply (iot : IVec S1x256 32) (hiot : ∀ k : Fin 256, iot (ix2 (0 : Fin 1) k) = BitVec.ofNat 32 k.val)
    (row : Vec Ideal S1x1024 .i32) (tb : Vec Ideal S1x256x256 .f32) (r : Fin 1024) :
    pick (F := Ideal) iot row tb (ix1 r)
      = tb (ix3 (0 : Fin 1)
          ⟨(clampRow (F := Ideal) row (ix1 r)).toNat / 256, by
            have := Cert.Digits.clamp_lt (shapeCast S1024 row shapeCasts_S1x1024_S1024 (ix1 r))
            show (IntOp.minsi 65535#32 (IntOp.maxsi 0#32 _)).toNat / 256 < 256
            omega⟩
          ⟨(clampRow (F := Ideal) row (ix1 r)).toNat % 256, Nat.mod_lt _ (by decide)⟩) := by
  have hc : (clampRow (F := Ideal) row (ix1 r)).toNat < 65536 :=
    Cert.Digits.clamp_lt (shapeCast S1024 row shapeCasts_S1x1024_S1024 (ix1 r))
  unfold pick
  rw [selectOf_apply iot hiot _ _ _ r ⟨(clampRow (F := Ideal) row (ix1 r)).toNat / 256, by omega⟩
    ⟨(clampRow (F := Ideal) row (ix1 r)).toNat % 256, Nat.mod_lt _ (by decide)⟩]
  · unfold asMatrix
    show shapeCast S256x256 tb shapeCasts_S1x256x256_S256x256 (ix2 _ _) = _
    rw [shapeCast_1ab_ab_apply]
  · intro k
    rw [hot_apply, lanes_apply, hiot]
    show (IntOp.cmpi .eq (IntOp.shrsi .vector (clampRow (F := Ideal) row (ix1 r)) 8#32) _).setWidth 32 = _
    rw [Cert.Digits.hi_eq _ hc]
  · show IntOp.andi (clampRow (F := Ideal) row (ix1 r)) 255#32 = _
    rw [Cert.Digits.lo_eq]

end Cert.KernelIdeal.Sel

end
-- ==== Proof.Tile.lean ====
/-
  What one grid point leaves in the accumulator: the tile's running sums plus the eight neurons of the point.

  A point holds 8 neurons' fingerprints for a tile of 1024 samples (row `k` of the fingerprint block) and the 8
  neurons' rows of the table (slab `k` of the table block). The body adds, neuron by neuron in order, the neuron's
  term (`Sel.pick`) to the accumulator it found — or to zero at the first point of a tile's sweep — and stores the
  result back; at the last point of the sweep it also copies the stored result to the output's block.
-/
import proofs.«428686_j67147518705987_3_alg».proof.Proof.Gen.KernelIdeal.Frame
import proofs.«428686_j67147518705987_3_alg».proof.Proof.Selection
import Idealize.ShloMosaic.Lib.Pipeline.Value
import Idealize.ShloMosaic.Lib.Tactic

set_option maxRecDepth 16384

noncomputable section

namespace Cert.KernelIdeal.Tile

open Cert.KernelIdeal Cert.KernelIdeal.Gen Cert.KernelIdeal.Sel
open Idealize.ShloMosaic Idealize.ShloMosaic.TcCoe Idealize.SL.Sem

variable {F : FTy → Type} [FloatOps F]

theorem hz1 : (![0] : Fin 1 → Nat) = fun _ => 0 := funext fun a => by fin_cases a; rfl

/-- The lanes' numbers 0 … 255. -/
abbrev lane : IVec S1x256 32 := iota .tc S1x256 32 [1] iota_S1x256_d1_w32

/-- The accumulator after the point's eight neurons, from the accumulator before, the fingerprint block and the table block. -/
def step (acc : Vec F S1024 .f32) (x0 : Vec F S8x1024 .i32) (x1 : Vec F S8x256x256 .f32) : FVec F S1024 .f32 :=
  addf (addf (addf (addf (addf (addf (addf (addf acc
    (pick lane (View.ld x0 (Rect.unit (s := S8x1024) ![0, 0] S1x1024.size inb_S8x1024_S1x1024_0_0))
      (View.ld x1 (Rect.unit (s := S8x256x256) ![0, 0, 0] S1x256x256.size inb_S8x256x256_S1x256x256_0_0_0))))
    (pick lane (View.ld x0 (Rect.unit (s := S8x1024) ![1, 0] S1x1024.size inb_S8x1024_S1x1024_1_0))
      (View.ld x1 (Rect.unit (s := S8x256x256) ![1, 0, 0] S1x256x256.size inb_S8x256x256_S1x256x256_1_0_0))))
    (pick lane (View.ld x0 (Rect.unit (s := S8x1024) ![2, 0] S1x1024.size inb_S8x1024_S1x1024_2_0))
      (View.ld x1 (Rect.unit (s := S8x256x256) ![2, 0, 0] S1x256x256.size inb_S8x256x256_S1x256x256_2_0_0))))
    (pick lane (View.ld x0 (Rect.unit (s := S8x1024) ![3, 0] S1x1024.size inb_S8x1024_S1x1024_3_0))
      (View.ld x1 (Rect.unit (s := S8x256x256) ![3, 0, 0] S1x256x256.size inb_S8x256x256_S1x256x256_3_0_0))))
    (pick lane (View.ld x0 (Rect.unit (s := S8x1024) ![4, 0] S1x1024.size inb_S8x1024_S1x1024_4_0))
      (View.ld x1 (Rect.unit (s := S8x256x256) ![4, 0, 0] S1x256x256.size inb_S8x256x256_S1x256x256_4_0_0))))
    (pick lane (View.ld x0 (Rect.unit (s := S8x1024) ![5, 0] S1x1024.size inb_S8x1024_S1x1024_5_0))
      (View.ld x1 (Rect.unit (s := S8x256x256) ![5, 0, 0] S1x256x256.size inb_S8x256x256_S1x256x256_5_0_0))))
    (pick lane (View.ld x0 (Rect.unit (s := S8x1024) ![6, 0] S1x1024.size inb_S8x1024_S1x1024_6_0))
      (View.ld x1 (Rect.unit (s := S8x256x256) ![6, 0, 0] S1x256x256.size inb_S8x256x256_S1x256x256_6_0_0))))
    (pick lane (View.ld x0 (Rect.unit (s := S8x1024) ![7, 0] S1x1024.size inb_S8x1024_S1x1024_7_0))
      (View.ld x1 (Rect.unit (s := S8x256x256) ![7, 0, 0] S1x256x256.size inb_S8x256x256_S1x256x256_7_0_0)))

/-- A point inside a sweep (neither first nor last) leaves in the accumulator the step over what it found. -/
theorem sout_B (c : Dev nD) (i : grid0.Coords) (arg2 : Memref sig .tc .vmem S8x1024 .i32) (harg2 : arg2.IsWhole) (arg3 : Memref sig .tc .vmem S8x256x256 .f32) (harg3 : arg3.IsWhole) (arg4 : Memref sig .tc .vmem S1024 .f32) (harg4 : arg4.IsWhole) (arg5 : Memref sig .tc .vmem S1024 .f32) (harg5 : arg5.IsWhole) (hc0 : ¬cond0_0 i) (hc1 : ¬cond0_1 i)
    (x0 : Vec F S8x1024 .i32) (x1 : Vec F S8x256x256 .f32) (xs0 : Vec F S1024 .f32) :
    sout0_B_0 c i arg2 harg2 arg3 harg3 arg4 harg4 arg5 harg5 hc0 hc1 x0 x1 xs0 = step xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz1]
  simp only [View.readAt_eq_ld, harg2.read_unread, harg3.read_unread, harg5.read_unread, View.ld_unit_zero (S := S1024) hz1]
  exact (shapeCast_self _ _).trans rfl

/-- The zero the first point of a sweep stores before it accumulates. -/
abbrev zero : Vec F S1024 .f32 := k0_pay2

/-- The first point of a sweep leaves the step over zero. -/
theorem sout_A (c : Dev nD) (i : grid0.Coords) (arg2 : Memref sig .tc .vmem S8x1024 .i32) (harg2 : arg2.IsWhole) (arg3 : Memref sig .tc .vmem S8x256x256 .f32) (harg3 : arg3.IsWhole) (arg4 : Memref sig .tc .vmem S1024 .f32) (harg4 : arg4.IsWhole) (arg5 : Memref sig .tc .vmem S1024 .f32) (harg5 : arg5.IsWhole) (hc0 : cond0_0 i) (hc1 : ¬cond0_1 i)
    (x0 : Vec F S8x1024 .i32) (x1 : Vec F S8x256x256 .f32) :
    sout0_A_0 c i arg2 harg2 arg3 harg3 arg4 harg4 arg5 harg5 hc0 hc1 x0 x1 = step zero x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024) hz1]
  simp only [View.readAt_eq_ld, harg2.read_unread, harg3.read_unread, View.readCov_unit_zero (S := S1024) _ hz1]
  exact (shapeCast_self _ _).trans rfl

/-- The last point of a sweep leaves the step over what it found … -/
theorem sout_C (c : Dev nD) (i : grid0.Coords) (arg2 : Memref sig .tc .vmem S8x1024 .i32) (harg2 : arg2.IsWhole) (arg3 : Memref sig .tc .vmem S8x256x256 .f32) (harg3 : arg3.IsWhole) (arg4 : Memref sig .tc .vmem S1024 .f32) (harg4 : arg4.IsWhole) (arg5 : Memref sig .tc .vmem S1024 .f32) (harg5 : arg5.IsWhole) (hc0 : ¬cond0_0 i) (hc1 : cond0_1 i)
    (x0 : Vec F S8x1024 .i32) (x1 : Vec F S8x256x256 .f32) (xs0 : Vec F S1024 .f32) :
    sout0_C_0 c i arg2 harg2 arg3 harg3 arg4 harg4 arg5 harg5 hc0 hc1 x0 x1 xs0 = step xs0 x0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz1]
  simp only [View.readAt_eq_ld, harg2.read_unread, harg3.read_unread, harg5.read_unread, View.ld_unit_zero (S := S1024) hz1]
  exact (shapeCast_self _ _).trans rfl

/-- … and copies it to the output's block. -/
theorem out_C (c : Dev nD) (i : grid0.Coords) (arg2 : Memref sig .tc .vmem S8x1024 .i32) (harg2 : arg2.IsWhole) (arg3 : Memref sig .tc .vmem S8x256x256 .f32) (harg3 : arg3.IsWhole) (arg4 : Memref sig .tc .vmem S1024 .f32) (harg4 : arg4.IsWhole) (arg5 : Memref sig .tc .vmem S1024 .f32) (harg5 : arg5.IsWhole) (hc0 : ¬cond0_0 i) (hc1 : cond0_1 i)
    (x0 : Vec F S8x1024 .i32) (x1 : Vec F S8x256x256 .f32) (xs0 : Vec F S1024 .f32) :
    out0_C_2 c i arg2 harg2 arg3 harg3 arg4 harg4 arg5 harg5 hc0 hc1 x0 x1 xs0 = step xs0 x0 x1 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz1, View.readCov_unit_zero (S := S1024) _ hz1]
  simp only [View.readAt_eq_ld, harg2.read_unread, harg3.read_unread, harg5.read_unread, View.ld_unit_zero (S := S1024) hz1]
  exact (shapeCast_self _ _).trans rfl

/-- At the extended reals the zero is 0. -/
theorem zero_apply (r : Fin 1024) : (zero (F := Ideal)) (ValueIdx.ix1 r) = 0 := by
  unfold zero k0_pay2
  rw [shapeCast_self]
  show Ideal.ofBits .f32 0x00000000#32 = 0
  exact Ideal.ofBits_zero_f32

end Cert.KernelIdeal.Tile

end
-- ==== Proof.StepValue.lean ====
/-
  One point's step read at a sample, at the extended reals, over ANY fingerprint block and table block.

  At sample `r` of the tile, neuron-row `k` of the point contributes the table block's slab `k` at the two digits of
  the clamped fingerprint `x0[k, r]`; the step adds the eight contributions, in order, to what the accumulator held.
-/
import proofs.«428686_j67147518705987_3_alg».proof.Proof.Tile

set_option maxRecDepth 16384

noncomputable section

namespace Cert.KernelIdeal.StepValue

open Cert.KernelIdeal Cert.KernelIdeal.Gen Cert.KernelIdeal.Sel Cert.KernelIdeal.Tile
open Idealize.ShloMosaic Idealize.ShloMosaic.ValueIdx

/-- The lanes' numbers: lane `k` holds the word `k`. -/
theorem lane_apply (k : Fin 256) : (lane (ix2 (0 : Fin 1) k)) = BitVec.ofNat 32 k.val := by
  unfold lane
  exact iota_single_apply .tc S1x256 32 1 iota_S1x256_d1_w32 (ix2 (0 : Fin 1) k)

/-- The clamped fingerprint of neuron-row `k` at sample `r`. -/
def cl (x0 : Vec Ideal S8x1024 .i32) (k : Fin 8) (r : Fin 1024) : BitVec 32 :=
  IntOp.minsi 65535#32 (IntOp.maxsi 0#32 (x0 (ix2 k r)))

theorem cl_lt (x0 : Vec Ideal S8x1024 .i32) (k : Fin 8) (r : Fin 1024) : (cl x0 k r).toNat < 65536 :=
  Cert.Digits.clamp_lt _

/-- Neuron-row `k`'s contribution at sample `r`: slab `k` of the table block at the two digits. -/
def termOf (x0 : Vec Ideal S8x1024 .i32) (x1 : Vec Ideal S8x256x256 .f32) (k : Fin 8) (r : Fin 1024) : EReal :=
  x1 (ix3 k ⟨(cl x0 k r).toNat / 256, by have := cl_lt x0 k r; omega⟩ ⟨(cl x0 k r).toNat % 256, Nat.mod_lt _ (by decide)⟩)

/-- The selection over row `k` of the fingerprint block and slab `k` of the table block is that contribution. -/
theorem pick_row (x0 : Vec Ideal S8x1024 .i32) (x1 : Vec Ideal S8x256x256 .f32) (k : Nat) (hk : k < 8)
    (inb0 : ∀ a, (![k, 0] : Fin 2 → Nat) a + S1x1024.size a ≤ S8x1024.size a)
    (inb1 : ∀ a, (![k, 0, 0] : Fin 3 → Nat) a + S1x256x256.size a ≤ S8x256x256.size a) (r : Fin 1024) :
    pick (F := Ideal) lane (View.ld x0 (Rect.unit (s := S8x1024) ![k, 0] S1x1024.size inb0))
        (View.ld x1 (Rect.unit (s := S8x256x256) ![k, 0, 0] S1x256x256.size inb1)) (ix1 r)
      = termOf x0 x1 ⟨k, hk⟩ r := by
  have hc : clampRow (F := Ideal) (View.ld x0 (Rect.unit (s := S8x1024) ![k, 0] S1x1024.size inb0)) (ix1 r) = cl x0 ⟨k, hk⟩ r := by
    show IntOp.minsi 65535#32 (IntOp.maxsi 0#32 (shapeCast S1024 (View.ld x0 (Rect.unit (s := S8x1024) ![k, 0] S1x1024.size inb0))
      shapeCasts_S1x1024_S1024 (ix1 r))) = _
    rw [shapeCast_1a_a_apply]
    show IntOp.minsi 65535#32 (IntOp.maxsi 0#32 (x0 ((Rect.unit (s := S8x1024) ![k, 0] S1x1024.size inb0).idx (ix2 (0 : Fin 1) r)))) = _
    unfold cl
    refine congrArg (fun z => IntOp.minsi 65535#32 (IntOp.maxsi 0#32 (x0 z))) (funext fun a => Fin.ext ?_)
    match a with
    | ⟨0, _⟩ => show k + 1 * 0 = k; omega
    | ⟨1, _⟩ => show 0 + 1 * r.val = r.val; omega
  rw [pick_apply lane lane_apply]
  unfold termOf
  show x1 ((Rect.unit (s := S8x256x256) ![k, 0, 0] S1x256x256.size inb1).idx (ix3 (0 : Fin 1) _ _)) = _
  refine congrArg x1 (funext fun a => Fin.ext ?_)
  match a with
  | ⟨0, _⟩ => show k + 1 * 0 = k; omega
  | ⟨1, _⟩ =>
    show 0 + 1 * ((clampRow (F := Ideal) (View.ld x0 (Rect.unit (s := S8x1024) ![k, 0] S1x1024.size inb0)) (ix1 r)).toNat / 256)
      = (cl x0 ⟨k, hk⟩ r).toNat / 256
    rw [hc]; omega
  | ⟨2, _⟩ =>
    show 0 + 1 * ((clampRow (F := Ideal) (View.ld x0 (Rect.unit (s := S8x1024) ![k, 0] S1x1024.size inb0)) (ix1 r)).toNat % 256)
      = (cl x0 ⟨k, hk⟩ r).toNat % 256
    rw [hc]; omega

/-- THE STEP AT A SAMPLE: what the accumulator held plus the eight contributions, in order. -/
theorem step_apply (acc : Vec Ideal S1024 .f32) (x0 : Vec Ideal S8x1024 .i32) (x1 : Vec Ideal S8x256x256 .f32) (r : Fin 1024) :
    step (F := Ideal) acc x0 x1 (ix1 r)
      = acc (ix1 r) + termOf x0 x1 ⟨0, by decide⟩ r + termOf x0 x1 ⟨1, by decide⟩ r + termOf x0 x1 ⟨2, by decide⟩ r
        + termOf x0 x1 ⟨3, by decide⟩ r + termOf x0 x1 ⟨4, by decide⟩ r + termOf x0 x1 ⟨5, by decide⟩ r
        + termOf x0 x1 ⟨6, by decide⟩ r + termOf x0 x1 ⟨7, by decide⟩ r := by
  unfold step
  simp only [addf_apply]
  rw [pick_row x0 x1 0 (by decide) _ _ r, pick_row x0 x1 1 (by decide) _ _ r, pick_row x0 x1 2 (by decide) _ _ r,
    pick_row x0 x1 3 (by decide) _ _ r, pick_row x0 x1 4 (by decide) _ _ r, pick_row x0 x1 5 (by decide) _ _ r,
    pick_row x0 x1 6 (by decide) _ _ r, pick_row x0 x1 7 (by decide) _ _ r]

end Cert.KernelIdeal.StepValue

end
-- ==== Proof.Blocks.lean ====
/-
  The two input blocks of a grid point, read back to the argument arrays.

  The grid is 8 sample blocks by 128 neuron blocks; point `t` has sample block `t / 128` and neuron block
  `t % 128`. The fingerprints reach the kernel transposed, `[1024, 8192]` (neurons by samples), and its block at
  point `t` is the `[8, 1024]` rectangle at block index `(t % 128, t / 128)`: eight neurons by 1024 samples. The
  table reaches it reshaped, `[1024, 256, 256]` (a row of 65536 columns as 256 by 256), and its block at point `t`
  is the `[8, 256, 256]` rectangle at block index `(t % 128, 0, 0)`: the whole rows of the same eight neurons. A
  block's coordinate in its array is the block index times the block size plus the coordinate inside the block; the
  transpose swaps the two coordinates back, and the reshape keeps the row-major position `256 * h + l` of a column.
-/
import proofs.«428686_j67147518705987_3_alg».proof.Proof.Gen.KernelIdeal.Frame
import Idealize.ShloMosaic.Lib.Pipeline.Value
import Idealize.ShloMosaic.Lib.ValueLayout
import Idealize.ShloMosaic.Lib.ValueIdx
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! ## The arrays the region finds -/

/-- The fingerprints as the region finds them: the argument transposed, neurons by samples. -/
theorem V_main_v0 (c : Dev nD) :
    (V m c main_v0 : S1024x8192.Idx → Elt F .i32)
      = transpose S1024x8192 [1, 0] (m ((c : Thread nD τ).loc main_arg0)) transposes_S8192x1024_S1024x8192_1_0 := by
  dsimp only [Gen.V, Gen.hostOps0]
  after_results

/-- The table as the region finds it: the argument with each row of 65536 columns laid out as 256 by 256. -/
theorem V_main_v1 (c : Dev nD) :
    (V m c main_v1 : S1024x256x256.Idx → Elt F .f32)
      = shapeCast S1024x256x256 (m ((c : Thread nD τ).loc main_arg1)) shapeCasts_S1024x65536_S1024x256x256 := by
  dsimp only [Gen.V, Gen.hostOps0]
  after_results
  rfl

/-! ## The block indices, decided over the grid -/

/-- The fingerprint block of point `t`: neuron block `t % 128`, sample block `t / 128`. -/
theorem idx_fing : ∀ t : Fin cfg0.N, win0_0.index t (0 : Fin 2) = t.val % 128 ∧ win0_0.index t (1 : Fin 2) = t.val / 128 :=
  (by decide +kernel : ∀ t : Fin grid0.N, _)

/-- The table block of point `t`: neuron block `t % 128`, and all of each row. -/
theorem idx_table : ∀ t : Fin cfg0.N, win0_1.index t (0 : Fin 3) = t.val % 128 ∧ win0_1.index t (1 : Fin 3) = 0
    ∧ win0_1.index t (2 : Fin 3) = 0 :=
  (by decide +kernel : ∀ t : Fin grid0.N, _)

/-! ## The blocks at an index -/

/-- The fingerprint block of point `t` at `(k, r)` is the fingerprint of sample `1024 * (t / 128) + r` at neuron
    `8 * (t % 128) + k`. -/
theorem fing_at (c : Dev nD) (t : Fin cfg0.N) (k : Fin 8) (r : Fin 1024) (hi : 1024 * (t.val / 128) + r.val < 8192)
    (hj : 8 * (t.val % 128) + k.val < 1024) :
    (iblk m c 0 t : Vec F S8x1024 .i32) (ValueIdx.ix2 k r)
      = m ((c : Thread nD τ).loc main_arg0) (ValueIdx.ix2 ⟨1024 * (t.val / 128) + r.val, hi⟩ ⟨8 * (t.val % 128) + k.val, hj⟩) := by
  unfold iblk
  rw [View.read_apply]
  show V m c main_v0 (((cfg0.win 0).blk t).view.emb (ValueIdx.ix2 k r)) = _
  -- the block's element `(k, r)` sits in the transposed array at (block index × block size + coordinate) per axis
  have he : ((cfg0.win 0).blk t).view.emb (ValueIdx.ix2 k r)
      = (ValueIdx.ix2 (⟨8 * (t.val % 128) + k.val, hj⟩ : Fin 1024) (⟨1024 * (t.val / 128) + r.val, hi⟩ : Fin 8192) : S1024x8192.Idx) := by
    obtain ⟨e0, e1⟩ := idx_fing t
    funext a
    apply Fin.ext
    match a with
    | ⟨0, _⟩ => show win0_0.index t (0 : Fin 2) * 8 + 1 * k.val = 8 * (t.val % 128) + k.val; rw [e0]; omega
    | ⟨1, _⟩ => show win0_0.index t (1 : Fin 2) * 1024 + 1 * r.val = 1024 * (t.val / 128) + r.val; rw [e1]; omega
  rw [he, V_main_v0]
  -- the transpose at (neuron, sample) is the argument at (sample, neuron)
  exact ValueIdx.transpose_ix2_apply _ _ _ _

/-- The table block of point `t` at `(k, h, l)` is the table at neuron `8 * (t % 128) + k` and column `256 * h + l`. -/
theorem table_at (c : Dev nD) (t : Fin cfg0.N) (k : Fin 8) (h l : Fin 256) (hj : 8 * (t.val % 128) + k.val < 1024)
    (hc : 256 * h.val + l.val < 65536) :
    (iblk m c 1 t : Vec F S8x256x256 .f32) (ValueIdx.ix3 k h l)
      = m ((c : Thread nD τ).loc main_arg1) (ValueIdx.ix2 ⟨8 * (t.val % 128) + k.val, hj⟩ ⟨256 * h.val + l.val, hc⟩) := by
  unfold iblk
  rw [View.read_apply]
  show V m c main_v1 (((cfg0.win 1).blk t).view.emb (ValueIdx.ix3 k h l)) = _
  -- the block's element `(k, h, l)` sits in the reshaped array at row `8 * (t % 128) + k`, the same `(h, l)`
  have he : ((cfg0.win 1).blk t).view.emb (ValueIdx.ix3 k h l)
      = (ValueIdx.ix3 (⟨8 * (t.val % 128) + k.val, hj⟩ : Fin 1024) h l : S1024x256x256.Idx) := by
    obtain ⟨e0, e1, e2⟩ := idx_table t
    funext a
    apply Fin.ext
    match a with
    | ⟨0, _⟩ => show win0_1.index t (0 : Fin 3) * 8 + 1 * k.val = 8 * (t.val % 128) + k.val; rw [e0]; omega
    | ⟨1, _⟩ => show win0_1.index t (1 : Fin 3) * 256 + 1 * h.val = h.val; rw [e1]; omega
    | ⟨2, _⟩ => show win0_1.index t (2 : Fin 3) * 256 + 1 * l.val = l.val; rw [e2]; omega
  rw [he, V_main_v1]
  -- a reshape keeps the row-major position: `(n, 256 * h + l)` of [1024, 65536] is `(n, h, l)` of [1024, 256, 256]
  refine shapeCast_apply (s := S1024x65536) (t := S1024x256x256) _ _ _ _ ?_
  show (S1024x65536.rowMajor (ValueIdx.ix2 (⟨8 * (t.val % 128) + k.val, hj⟩ : Fin 1024) (⟨256 * h.val + l.val, hc⟩ : Fin 65536))).val
    = (S1024x256x256.rowMajor (ValueIdx.ix3 (⟨8 * (t.val % 128) + k.val, hj⟩ : Fin 1024) h l)).val
  rw [Shape.rowMajor_val_two, Shape.rowMajor_val_three]
  show (8 * (t.val % 128) + k.val) * 65536 + (256 * h.val + l.val) = ((8 * (t.val % 128) + k.val) * 256 + h.val) * 256 + l.val
  omega

end Cert.KernelIdeal.Blocks

end
-- ==== Proof.Response.lean ====
/-
  The response both programs compute, as ONE function of the argument arrays.

  `data` holds, per sample `i` and neuron `j`, a fingerprint: a column of neuron `j`'s row of the table. The response
  of sample `i` is the sum over the neurons of the table's entries at their fingerprints,
      response i = ∑ j, table[j, data[i, j]],
  an extended real. It is stated for fingerprints that ARE columns (`InRange`: as signed words, in [0, 65536)); the
  column a word names is then its value, written here as the word's value modulo the row length so that the
  function is total.
-/
import Idealize.ShloMosaic.Lib.ValueIdx
import Idealize.ShloMosaic.PureOps.Ideal

noncomputable section

open scoped BigOperators

namespace Cert.Membership

open Idealize.ShloMosaic Idealize.ShloMosaic.ValueIdx

/-- The fingerprints: samples by neurons. -/
abbrev SFing : Shape := ⟨2, ![8192, 1024]⟩
/-- The table: neurons by columns. -/
abbrev STab : Shape := ⟨2, ![1024, 65536]⟩
/-- The responses: one per sample. -/
abbrev SResp : Shape := ⟨1, ![8192]⟩

/-- Every fingerprint is a column of the table: read as a signed word it lies in [0, 65536). -/
def InRange (data : IVec SFing 32) : Prop := ∀ i, 0 ≤ (data i).toInt ∧ (data i).toInt < 65536

/-- The column a fingerprint names. -/
def col (d : BitVec 32) : Fin 65536 := ⟨d.toNat % 65536, Nat.mod_lt _ (by decide)⟩

/-- The response of each sample: the sum over the neurons of the table at their fingerprints. -/
def response (data : IVec SFing 32) (table : FVec Ideal STab .f32) : FVec Ideal SResp .f32 :=
  fun i => ∑ j : Fin 1024, table (ix2 j (col (data (ix2 (i 0) j))))

/-- A word in range is non-negative and small: its unsigned value is its signed one. -/
theorem toNat_of_inRange {d : BitVec 32} (h0 : 0 ≤ d.toInt) (h1 : d.toInt < 65536) :
    d.toNat < 65536 ∧ d.toInt = (d.toNat : Int) := by
  have := BitVec.toInt_eq_toNat_cond d
  have hlt := d.isLt
  split at this <;> omega

/-- The column of a word in range is the word's value. -/
theorem col_val_of_inRange {d : BitVec 32} (h0 : 0 ≤ d.toInt) (h1 : d.toInt < 65536) : (col d).val = d.toNat := by
  have h := (toNat_of_inRange h0 h1).1
  show d.toNat % 65536 = d.toNat
  exact Nat.mod_eq_of_lt h

end Cert.Membership

end
-- ==== Proof.Sweep.lean ====
/-
  A sweep over the neurons: the accumulator after each point, and what the last point of a sweep writes out.

  Point `n` of the grid works on the tile of samples `1024·(n / 128) + r` (`r < 1024`) and on the eight neurons
  `8·(n % 128) + k` (`k < 8`). With every fingerprint a column of the table, neuron-row `k`'s contribution at sample
  `r` is the table's entry of that neuron at that sample's fingerprint, so after point `n` the accumulator holds, at
  sample `r`, the sum of the entries of the first `8·(n % 128 + 1)` neurons — added in the neurons' order, which is the
  order a sum over an initial range unfolds in — and the last point of the sweep, `n % 128 = 127`, writes out the sum
  over all 1024 neurons: the response.
-/
import proofs.«428686_j67147518705987_3_alg».proof.Proof.StepValue
import proofs.«428686_j67147518705987_3_alg».proof.Proof.Blocks
import proofs.«428686_j67147518705987_3_alg».proof.Proof.Response

set_option maxRecDepth 16384

noncomputable section

open scoped BigOperators

namespace Cert.KernelIdeal.Sweep

open Cert.KernelIdeal Cert.KernelIdeal.Gen Cert.KernelIdeal.Tile Cert.KernelIdeal.StepValue Cert.Membership
open Idealize.ShloMosaic Idealize.ShloMosaic.ValueIdx Idealize.ShloMosaic.TcCoe Idealize.SL.Sem

variable (m : (ℓ : Loc nD τ sig) → Buf (Elt Ideal) ℓ)

/-- The fingerprints and the table as launched. -/
abbrev data (c : Dev nD) : IVec S8192x1024 32 := m ((c : Thread nD τ).loc main_arg0)
abbrev table (c : Dev nD) : FVec Ideal S1024x65536 .f32 := m ((c : Thread nD τ).loc main_arg1)

/-- Neuron `j`'s entry for sample `i` (0 past the last neuron). -/
def entry (c : Dev nD) (i : Fin 8192) (j : Nat) : EReal :=
  if h : j < 1024 then table m c (ix2 ⟨j, h⟩ (col (data m c (ix2 i ⟨j, h⟩)))) else 0

/-- The sum of the first `cnt` neurons' entries for sample `i`. -/
def partialSum (c : Dev nD) (i : Fin 8192) (cnt : Nat) : EReal := ∑ j ∈ Finset.range cnt, entry m c i j

/-- Eight more terms of a sum over an initial range, added one by one. -/
theorem sum_range_add8 (f : Nat → EReal) (a : Nat) :
    ∑ j ∈ Finset.range (a + 8), f j
      = ∑ j ∈ Finset.range a, f j + f (a + 0) + f (a + 1) + f (a + 2) + f (a + 3) + f (a + 4) + f (a + 5) + f (a + 6) + f (a + 7) := by
  simp only [Finset.sum_range_succ, Nat.add_zero]

/-- Over ANY blocks: if the fingerprint block holds at `(k, r)` a word `D` that is a column, and slab `k` of the table
    block is row `j` of a table read as a 256 × 256 matrix, the contribution is the table's entry at `(j, D)`. -/
theorem termOf_of (x0 : Vec Ideal S8x1024 .i32) (x1 : Vec Ideal S8x256x256 .f32) (k : Fin 8) (r : Fin 1024)
    (D : BitVec 32) (T : STab.Idx → EReal) (j : Fin 1024)
    (h0 : x0 (ix2 k r) = D) (hD0 : 0 ≤ D.toInt) (hD1 : D.toInt < 65536)
    (h1 : ∀ (h l : Fin 256) (hc : 256 * h.val + l.val < 65536), x1 (ix3 k h l) = T (ix2 j ⟨256 * h.val + l.val, hc⟩)) :
    termOf x0 x1 k r = T (ix2 j (col D)) := by
  have hcl : cl x0 k r = D := by
    unfold cl
    rw [h0]
    exact Cert.Digits.clamp_of_inRange _ hD0 hD1
  have hlt := cl_lt x0 k r
  unfold termOf
  rw [h1 _ _ (by dsimp only; omega)]
  refine congrArg T (funext fun a => Fin.ext ?_)
  match a with
  | ⟨0, _⟩ => rfl
  | ⟨1, _⟩ =>
    show 256 * ((cl x0 k r).toNat / 256) + (cl x0 k r).toNat % 256 = (col D).val
    rw [col_val_of_inRange hD0 hD1, hcl]
    omega

/-- With every fingerprint a column, neuron-row `k`'s contribution at point `t` and sample `r` is the entry of neuron
    `8·(t % 128) + k` for sample `1024·(t / 128) + r`. -/
theorem termOf_blocks (c : Dev nD) (hr : InRange (data m c)) (t : Fin cfg0.N) (k : Nat) (hk : k < 8) (r : Fin 1024)
    (i : Fin 8192) (hi : i.val = 1024 * (t.val / 128) + r.val) :
    termOf (iblk m c 0 t) (iblk m c 1 t) ⟨k, hk⟩ r = entry m c i (8 * (t.val % 128) + k) := by
  have hi' : 1024 * (t.val / 128) + r.val < 8192 := hi ▸ i.isLt
  obtain rfl : i = ⟨1024 * (t.val / 128) + r.val, hi'⟩ := Fin.ext hi
  have hj : 8 * (t.val % 128) + k < 1024 := by omega
  unfold entry
  rw [dif_pos hj]
  exact termOf_of (iblk m c 0 t) (iblk m c 1 t) ⟨k, hk⟩ r
    (data m c (ix2 ⟨1024 * (t.val / 128) + r.val, hi'⟩ ⟨8 * (t.val % 128) + k, hj⟩)) (table m c) ⟨8 * (t.val % 128) + k, hj⟩
    (Blocks.fing_at m c t ⟨k, hk⟩ r hi' hj) (hr _).1 (hr _).2
    (fun h l hc => Blocks.table_at m c t ⟨k, hk⟩ h l hj hc)

/-- ONE POINT: if the accumulator held the sum of the first `8·(t % 128)` neurons' entries, the step leaves the sum of
    the first `8·(t % 128 + 1)`. -/
theorem step_blocks (c : Dev nD) (hr : InRange (data m c)) (t : Fin cfg0.N) (acc : Vec Ideal S1024 .f32) (r : Fin 1024)
    (i : Fin 8192) (hi : i.val = 1024 * (t.val / 128) + r.val)
    (hacc : acc (ix1 r) = partialSum m c i (8 * (t.val % 128))) :
    step (F := Ideal) acc (iblk m c 0 t) (iblk m c 1 t) (ix1 r) = partialSum m c i (8 * (t.val % 128 + 1)) := by
  rw [step_apply acc (iblk m c 0 t) (iblk m c 1 t) r, hacc,
    termOf_blocks m c hr t 0 (by decide) r i hi, termOf_blocks m c hr t 1 (by decide) r i hi,
    termOf_blocks m c hr t 2 (by decide) r i hi, termOf_blocks m c hr t 3 (by decide) r i hi,
    termOf_blocks m c hr t 4 (by decide) r i hi, termOf_blocks m c hr t 5 (by decide) r i hi,
    termOf_blocks m c hr t 6 (by decide) r i hi, termOf_blocks m c hr t 7 (by decide) r i hi]
  unfold partialSum
  rw [show 8 * (t.val % 128 + 1) = 8 * (t.val % 128) + 8 from by omega, sum_range_add8]

/-- THE ACCUMULATOR AFTER POINT `n`, at sample `r`: the sum of the first `8·(n % 128 + 1)` neurons' entries. -/
theorem scratch_eq (c : Dev nD) (hr : InRange (data m c)) (n : Nat) :
    ∀ (hn : n < cfg0.N) (r : Fin 1024) (i : Fin 8192), i.val = 1024 * (n / 128) + r.val →
      (outsAt0 m c n hn).2 (ix1 r) = partialSum m c i (8 * (n % 128 + 1)) := by
  induction n using Nat.strong_induction_on with
  | _ n ih =>
    intro hn r i hi
    have hN : n < 1024 := lt_of_lt_of_eq hn N_0
    by_cases h0 : n % 128 = 0
    · have h1 : ¬ n % 128 = 127 := by omega
      rw [outsAt0_A m c ⟨n, hn⟩ h0 h1]
      dsimp only
      refine (congrFun (sout_A (F := Ideal) c _ _ _ _ _ _ _ _ _ _ _ (iblk m c 0 ⟨n, hn⟩) (iblk m c 1 ⟨n, hn⟩)) (ix1 r)).trans ?_
      refine step_blocks m c hr ⟨n, hn⟩ zero r i hi ?_
      rw [zero_apply]
      show (0 : EReal) = partialSum m c i (8 * (n % 128))
      rw [h0]
      rfl
    · have hprev : n - 1 < cfg0.N := by omega
      have ihn := ih (n - 1) (by omega) hprev r i (by omega)
      rw [show 8 * ((n - 1) % 128 + 1) = 8 * (n % 128) from by omega] at ihn
      by_cases h1 : n % 128 = 127
      · rw [outsAt0_C m c ⟨n, hn⟩ h0 h1]
        dsimp only
        refine (congrFun (sout_C (F := Ideal) c _ _ _ _ _ _ _ _ _ _ _ (iblk m c 0 ⟨n, hn⟩) (iblk m c 1 ⟨n, hn⟩) _) (ix1 r)).trans ?_
        exact step_blocks m c hr ⟨n, hn⟩ _ r i hi ihn
      · rw [outsAt0_B m c ⟨n, hn⟩ h0 h1]
        dsimp only
        refine (congrFun (sout_B (F := Ideal) c _ _ _ _ _ _ _ _ _ _ _ (iblk m c 0 ⟨n, hn⟩) (iblk m c 1 ⟨n, hn⟩) _) (ix1 r)).trans ?_
        exact step_blocks m c hr ⟨n, hn⟩ _ r i hi ihn

/-- The sum over all 1024 neurons is the response. -/
theorem partialSum_full (c : Dev nD) (i : Fin 8192) :
    partialSum m c i 1024 = response (data m c) (table m c) (ix1 i) := by
  unfold partialSum response
  rw [Finset.sum_range]
  refine Finset.sum_congr rfl fun j _ => ?_
  unfold entry
  rw [dif_pos j.isLt]

/-- WHAT THE LAST POINT OF A SWEEP WRITES OUT, at sample `r`: the response of sample `1024·(n / 128) + r`. -/
theorem out_eq (c : Dev nD) (hr : InRange (data m c)) (n : Nat) (hn : n < cfg0.N) (h127 : n % 128 = 127) (r : Fin 1024)
    (i : Fin 8192) (hi : i.val = 1024 * (n / 128) + r.val) :
    (outsAt0 m c n hn).1 (ix1 r) = response (data m c) (table m c) (ix1 i) := by
  have hN : n < 1024 := lt_of_lt_of_eq hn N_0
  have h0 : ¬ n % 128 = 0 := by omega
  have hprev : n - 1 < cfg0.N := by omega
  have ihn := scratch_eq m c hr (n - 1) hprev r i (by omega)
  rw [show 8 * ((n - 1) % 128 + 1) = 8 * (n % 128) from by omega] at ihn
  rw [outsAt0_C m c ⟨n, hn⟩ h0 h127]
  dsimp only
  refine (congrFun (out_C (F := Ideal) c _ _ _ _ _ _ _ _ _ _ _ (iblk m c 0 ⟨n, hn⟩) (iblk m c 1 ⟨n, hn⟩) _) (ix1 r)).trans ?_
  rw [step_blocks m c hr ⟨n, hn⟩ _ r i hi ihn]
  show partialSum m c i (8 * (n % 128 + 1)) = _
  rw [h127]
  exact partialSum_full m c i

end Cert.KernelIdeal.Sweep

end
-- ==== Proof.Written.lean ====
/-
  From what the last point of each sweep leaves in the output's staging buffer to the final array.

  The output `[8192]` is written back in blocks of 1024 samples: sample block `b` is written once, by the last point
  of its sweep over the 128 neuron blocks, the point `t = 128 * b + 127` (the points with `t % 128 = 127`), whose
  block index is `t / 128 = b`. The blocks tile the array, so what such a point writes back is the whole contents of
  the staging buffer after its body, and element `r` of it lands at sample `1024 * (t / 128) + r`. Hence, if for a
  function `G` of the samples every such point leaves `G` at `1024 * (t / 128) + r` in position `r`, the array
  ends holding `G`: sample `R` is covered by the point `128 * (R / 1024) + 127`.
-/
import proofs.«428686_j67147518705987_3_alg».proof.Proof.Gen.KernelIdeal.Value
import Idealize.ShloMosaic.Lib.Pipeline.Value
import Idealize.ShloMosaic.Lib.ValueIdx

noncomputable section

namespace Cert.KernelIdeal.Written

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The output block of point `t` is sample block `t / 128` — decided over the grid. -/
theorem idx_out : ∀ t : Fin cfg0.N, win0_2.index t (0 : Fin 1) = t.val / 128 :=
  (by decide +kernel : ∀ t : Fin grid0.N, _)

/-- A sample is in point `t`'s output block iff it lies in the block's range: from (block index × 1024), 1024 long. -/
theorem mem_blk (t : Fin cfg0.N) (i : S8192.Idx) :
    i ∈ ((cfg0.win 2).blk t).view.set
      ↔ ∀ a : Fin 1, win0_2.index t a * S1024.size a ≤ (i a).val ∧ (i a).val < win0_2.index t a * S1024.size a + S1024.size a := by
  show i ∈ ((View.whole main_v2).slice (win0_2.rect t)).set ↔ _
  rw [View.set_slice_whole, Rect.mem_set_unit]
  exact Iff.rfl

/-- What a writing point `t` writes back is block `t` of `G`, when the staging buffer after its body holds `G` at
    the block's samples. -/
theorem flushed_eq (c : Dev nD) (G : Vec F S8192 .f32)
    (hG : ∀ (t : Fin cfg0.N), t.val % 128 = 127 → ∀ r : Fin 1024, ∀ hi : 1024 * (t.val / 128) + r.val < 8192,
        (outsAt0 m c t.val t.isLt).1 (ValueIdx.ix1 r) = G (ValueIdx.ix1 ⟨1024 * (t.val / 128) + r.val, hi⟩))
    (t : Fin cfg0.N) (hf : (cfg0.win 2).flush t = true) :
    (dats m 0 c).flushed 2 t = ((cfg0.win 2).blk t).view.read (Elt F) G := by
  -- the writing points are the last of each sweep
  have h127 : t.val % 128 = 127 := (flush0_2 t).mp hf
  have hN : t.val < 1024 := lt_of_lt_of_eq t.isLt (show cfg0.N = 1024 from N_0)
  -- what is written back is the staging buffer's contents after the body (the block is never cut)
  rw [Value.flushed2]
  funext y
  rw [View.read_apply]
  have hy : (y 0).val < 1024 := (y 0).isLt
  have hi : 1024 * (t.val / 128) + (y 0).val < 8192 := by omega
  show (outsAt0 m c t.val t.isLt).1 ((cfg0.win 2).xinj (grid0.coords t) y) = G (((cfg0.win 2).blk t).view.emb y)
  -- position `y` of the block, as a position of the staging buffer
  have e1 : (cfg0.win 2).xinj (grid0.coords t) y = (ValueIdx.ix1 (⟨(y 0).val, hy⟩ : Fin 1024) : S1024.Idx) := by
    funext a; match a with | ⟨0, _⟩ => rfl
  -- and as a sample of the array: block index × 1024 + the position
  have e2 : ((cfg0.win 2).blk t).view.emb y = (ValueIdx.ix1 (⟨1024 * (t.val / 128) + (y 0).val, hi⟩ : Fin 8192) : S8192.Idx) := by
    funext a
    apply Fin.ext
    match a with
    | ⟨0, _⟩ => show win0_2.index t (0 : Fin 1) * 1024 + 1 * (y 0).val = 1024 * (t.val / 128) + (y 0).val; rw [idx_out t]; omega
  rw [e1, e2]
  exact hG t h127 ⟨(y 0).val, hy⟩ hi

/-- THE FINAL ARRAY: it holds `G`, when the last point of every sweep leaves `G` at its block's samples in the output's
    staging buffer. Sample `R` is covered by the point `128 * (R / 1024) + 127`. -/
theorem final_of (c : Dev nD) (G : Vec F S8192 .f32)
    (hG : ∀ (t : Fin cfg0.N), t.val % 128 = 127 → ∀ r : Fin 1024, ∀ hi : 1024 * (t.val / 128) + r.val < 8192,
        (outsAt0 m c t.val t.isLt).1 (ValueIdx.ix1 r) = G (ValueIdx.ix1 ⟨1024 * (t.val / 128) + r.val, hi⟩)) :
    (dats m 0 c).arrAt 2 cfg0.N = G :=
  (dats m 0 c).arrAt_eq_of_cover 2 G (fun t hf => flushed_eq m c G hG t hf) fun i => by
    have hR : (i 0).val < 8192 := (i 0).isLt
    have hN : cfg0.N = 1024 := N_0
    have hlt : 128 * ((i 0).val / 1024) + 127 < cfg0.N := by rw [hN]; omega
    refine ⟨⟨128 * ((i 0).val / 1024) + 127, hlt⟩, (flush0_2 _).mpr (by show (128 * ((i 0).val / 1024) + 127) % 128 = 127; omega), ?_⟩
    rw [mem_blk]
    intro a
    match a with
    | ⟨0, _⟩ =>
      show win0_2.index ⟨128 * ((i 0).val / 1024) + 127, hlt⟩ (0 : Fin 1) * 1024 ≤ (i 0).val
        ∧ (i 0).val < win0_2.index ⟨128 * ((i 0).val / 1024) + 127, hlt⟩ (0 : Fin 1) * 1024 + 1024
      rw [idx_out]
      show (128 * ((i 0).val / 1024) + 127) / 128 * 1024 ≤ (i 0).val ∧ (i 0).val < (128 * ((i 0).val / 1024) + 127) / 128 * 1024 + 1024
      omega

end Cert.KernelIdeal.Written

end
-- ==== Proof.KernelRun.lean ====
/-
  The idealized kernel's run, read: its result array ends at the response.

  Every block of the result array is written back once, by the last point of its tile's sweep, with the responses of
  the tile's samples; the blocks tile the array.
-/
import proofs.«428686_j67147518705987_3_alg».proof.Proof.Sweep
import proofs.«428686_j67147518705987_3_alg».proof.Proof.Written
import proofs.«428686_j67147518705987_3_alg».proof.Proof.Gen.KernelIdeal.Value

noncomputable section

namespace Cert.KernelIdeal.Sweep

open Cert.KernelIdeal Cert.KernelIdeal.Gen Cert.Membership
open Idealize.ShloMosaic Idealize.ShloMosaic.ValueIdx Idealize.ShloMosaic.TcCoe Idealize.SL.Sem

variable (m : (ℓ : Loc nD τ sig) → Buf (Elt Ideal) ℓ) (ρ : Dev nD → PrngReg)

/-- With every fingerprint a column of the table, the result array after the run is the response. -/
theorem final (c : Dev nD) (hr : InRange (data m c)) :
    (dats m 0 c).arrAt 2 cfg0.N = response (data m c) (table m c) :=
  Written.final_of m c (response (data m c) (table m c))
    (fun t h127 r hi => out_eq m c hr t.val t.isLt h127 r ⟨1024 * (t.val / 128) + r.val, hi⟩ rfl)

/-- Every weakly fair execution of the idealized kernel terminates with the result array at the response and the
    arguments unchanged. -/
theorem run (hr : ∀ c : Dev nD, InRange (data m c)) :
    θ_run defs (onTc (τ := τ) (main (F := Ideal))) ⟨m, fun _ => 0, ρ⟩ fun r => ∀ c : Dev nD,
      r.2.mem ((c : Thread nD τ).loc main_v2) = response (data m c) (table m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hr c)), (h c).2⟩) (Cert.KernelIdeal.Value.run_blocks m ρ)

end Cert.KernelIdeal.Sweep

end
-- ==== Proof.LibGatherPoint.lean ====
/-
  A two-axis table read at a POINT named by a pair of start indices, at an index.

  `x[rows, cols]` of a table `x : [M, N]` with two index rectangles `rows, cols : [R, C]` (NumPy's pairing of two
  integer index arrays) lowers to a gather whose start indices `[R, C, 2]` carry the pair on their last axis, both
  operand axes collapsed, every slice one element. The result element at `(r, c)` is the table's element at row
  `idx[r, c, 0]` and column `idx[r, c, 1]`, each component read as a signed integer and clamped into its axis.
-/
import Idealize.ShloMosaic.Lib.ValueIdx

noncomputable section

namespace Idealize.ShloMosaic.GatherPoint

open Idealize.ShloMosaic Idealize.ShloMosaic.ValueIdx

variable {α : Type}

/-- The clamped position a signed word names on an axis of extent `N` (a slice of one element). -/
abbrev clampPos {w : Nat} (N : Nat) (hN : 0 < N) (v : BitVec w) : Fin N := ⟨min v.toInt.toNat (N - 1), by omega⟩

/-- The dimension numbers of the point gather: operand `[M, N]`, start indices `[R, C, 2]`, result `[R, C]`. -/
abbrev pointDims (M N R C : Nat)
    (wf : GatherDims.WF ⟨2, ![M, N]⟩ ⟨3, ![R, C, 2]⟩ ⟨2, ![R, C]⟩ [] [0, 1] [] [0, 1] [] 2 ![1, 1]) :
    GatherDims ⟨2, ![M, N]⟩ ⟨3, ![R, C, 2]⟩ ⟨2, ![R, C]⟩ where
  offsetDims := []
  collapsedSliceDims := [0, 1]
  operandBatchingDims := []
  startIndicesBatchingDims := []
  startIndexMap := [0, 1]
  indexVectorDim := 2
  sliceSizes := ![1, 1]
  wf := wf

theorem mem_pair_zero : (0 : Fin 2) ∈ ([0, 1] : List (Fin 2)) := by decide
theorem mem_pair_one : (1 : Fin 2) ∈ ([0, 1] : List (Fin 2)) := by decide

/-- On the first operand axis the index is the pair's first component, clamped. -/
theorem point_axis0 {M N R C w : Nat}
    (wf : GatherDims.WF ⟨2, ![M, N]⟩ ⟨3, ![R, C, 2]⟩ ⟨2, ![R, C]⟩ [] [0, 1] [] [0, 1] [] 2 ![1, 1])
    (idx : IVec ⟨3, ![R, C, 2]⟩ w) (j : (⟨2, ![R, C]⟩ : Shape).Idx) :
    ((pointDims M N R C wf).operandIdx j idx 0).val
      = min (idx (ix3 (j 0) (j 1) (0 : Fin 2))).toInt.toNat (M - 1) := by
  show (pointDims M N R C wf).start j idx 0 + (pointDims M N R C wf).batchCoord j 0 + (pointDims M N R C wf).offCoord j 0 = _
  rw [GatherDims.batchCoord_eq_zero _ _ _ List.not_mem_nil,
    GatherDims.offCoord_eq_zero _ _ _ (fun h => ((GatherDims.mem_sKept _ _).mp h).1 mem_pair_zero)]
  simp only [Nat.add_zero]
  unfold GatherDims.start
  rw [dif_pos (show (0 : Fin 2) ∈ (pointDims M N R C wf).startIndexMap from mem_pair_zero)]
  have hsi : (pointDims M N R C wf).siIdx j ⟨List.idxOf (0 : Fin 2) (pointDims M N R C wf).startIndexMap,
      List.idxOf_lt_length_iff.2 mem_pair_zero⟩ = ix3 (j 0) (j 1) (0 : Fin 2) := by
    funext b; refine Fin.ext ?_
    match b with
    | ⟨0, _⟩ => rfl
    | ⟨1, _⟩ => rfl
    | ⟨2, _⟩ => rfl
  rw [hsi]
  rfl

/-- On the second operand axis it is the pair's second component, clamped. -/
theorem point_axis1 {M N R C w : Nat}
    (wf : GatherDims.WF ⟨2, ![M, N]⟩ ⟨3, ![R, C, 2]⟩ ⟨2, ![R, C]⟩ [] [0, 1] [] [0, 1] [] 2 ![1, 1])
    (idx : IVec ⟨3, ![R, C, 2]⟩ w) (j : (⟨2, ![R, C]⟩ : Shape).Idx) :
    ((pointDims M N R C wf).operandIdx j idx 1).val
      = min (idx (ix3 (j 0) (j 1) (1 : Fin 2))).toInt.toNat (N - 1) := by
  show (pointDims M N R C wf).start j idx 1 + (pointDims M N R C wf).batchCoord j 1 + (pointDims M N R C wf).offCoord j 1 = _
  rw [GatherDims.batchCoord_eq_zero _ _ _ List.not_mem_nil,
    GatherDims.offCoord_eq_zero _ _ _ (fun h => ((GatherDims.mem_sKept _ _).mp h).1 mem_pair_one)]
  simp only [Nat.add_zero]
  unfold GatherDims.start
  rw [dif_pos (show (1 : Fin 2) ∈ (pointDims M N R C wf).startIndexMap from mem_pair_one)]
  have hsi : (pointDims M N R C wf).siIdx j ⟨List.idxOf (1 : Fin 2) (pointDims M N R C wf).startIndexMap,
      List.idxOf_lt_length_iff.2 mem_pair_one⟩ = ix3 (j 0) (j 1) (1 : Fin 2) := by
    funext b; refine Fin.ext ?_
    match b with
    | ⟨0, _⟩ => rfl
    | ⟨1, _⟩ => rfl
    | ⟨2, _⟩ => rfl
  rw [hsi]
  rfl

/-- THE POINT GATHER AT `(r, c)`: the table at row `idx[r, c, 0]` and column `idx[r, c, 1]`, each read signed and
    clamped into its axis. -/
theorem gather_point_apply {M N R C w : Nat} (hM : 0 < M) (hN : 0 < N)
    (wf : GatherDims.WF ⟨2, ![M, N]⟩ ⟨3, ![R, C, 2]⟩ ⟨2, ![R, C]⟩ [] [0, 1] [] [0, 1] [] 2 ![1, 1])
    (x : (⟨2, ![M, N]⟩ : Shape).Idx → α) (idx : IVec ⟨3, ![R, C, 2]⟩ w) (j : (⟨2, ![R, C]⟩ : Shape).Idx) :
    Host.gather (pointDims M N R C wf) x idx j
      = x (ix2 (clampPos M hM (idx (ix3 (j 0) (j 1) (0 : Fin 2)))) (clampPos N hN (idx (ix3 (j 0) (j 1) (1 : Fin 2))))) := by
  unfold Host.gather
  refine congrArg x (funext fun a => Fin.ext ?_)
  match a with
  | ⟨0, _⟩ => exact point_axis0 wf idx j
  | ⟨1, _⟩ => exact point_axis1 wf idx j

end Idealize.ShloMosaic.GatherPoint

end
-- ==== Proof.RefResponse.lean ====
/-
  The reference program's result is the response.

  The reference reads, for sample `i` and neuron `k`, the table at the point whose row is the neuron's number and
  whose column is the fingerprint `data[i, k]`, and sums these reads over the neurons from 0. It builds the point as
  a pair of start indices `[8192, 1024, 2]`: component 0 is the neuron's number `k` (an iota along the neurons,
  broadcast over the samples), component 1 is the fingerprint; each component first passes through the index
  normalisation `x ↦ if x < 0 then x + extent else x`, which leaves a non-negative word as it is. The two components
  are joined along the last axis by a concatenation of two one-wide pieces, and the table is read at the pair by a
  point gather, which clamps each component into its axis. Where every fingerprint lies in [0, 65536) the clamps change
  nothing: the row read is `k`, the column read is the fingerprint's value, and the sum is the response.
-/
import proofs.«428686_j67147518705987_3_alg».proof.Proof.Gen.ReferenceIdeal.Read
import proofs.«428686_j67147518705987_3_alg».proof.Proof.Response
import proofs.«428686_j67147518705987_3_alg».proof.Proof.LibGatherPoint

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Idealize.ShloMosaic.GatherPoint

variable {F : FTy → Type} [FloatOps F]

/-! ## Words -/

/-- The index normalisation `if d < 0 then d + N else d` (signed) leaves a non-negative word as it is. -/
theorem select_of_nonneg (d N : BitVec 32) (h0 : 0 ≤ d.toInt) :
    Scalar.select (IntOp.cmpi .slt d 0#32) (IntOp.addi d N) d = d := by
  unfold Scalar.select
  rw [if_neg]
  intro hc
  -- the signed comparison being 1 says `d.toInt < 0`
  have h1 := IntOp.cmpi_slt.1 hc
  have h2 : (0#32 : BitVec 32).toInt = 0 := by decide
  omega

/-- A neuron's number as a 32-bit word reads, signed, as that number. -/
theorem toInt_ofNat_of_lt (c : Nat) (hc : c < 1024) : (BitVec.ofNat 32 c).toInt = (c : Int) := by
  have h := BitVec.toInt_eq_toNat_cond (BitVec.ofNat 32 c)
  rw [BitVec.toNat_ofNat, Nat.mod_eq_of_lt (by omega)] at h
  rw [h, if_pos (by omega)]

/-! ## The two components of the start indices -/

/-- Component 0 of the start indices at `(r, c)` is the neuron's number `c`: the first piece of the concatenation,
    read back through the two broadcasts to the normalised iota along the neurons. -/
theorem start_row (data : IVec S8192x1024 32) (r : Fin 8192) (c : Fin 1024) :
    val_main_v15 (F := F) data (ix3 r c (0 : Fin 2)) = BitVec.ofNat 32 c.val := by
  unfold val_main_v15
  -- coordinate 0 on the joined axis falls in the first piece, at `(r, c, 0)`
  rw [concatenate_pair_apply_left (t := S8192x1024x2) (s₁ := S8192x1024x1) (s₂ := S8192x1024x1) (2 : Fin 3)
    (val_main_v13 (F := F)) (val_main_v14 (F := F) data) concatenates_S8192x1024x1_S8192x1024x1_S8192x1024x2_d2
    (ix3 r c (0 : Fin 2)) rfl (ix3 r c (0 : Fin 1))
    (fun b => by match b with | ⟨0, _⟩ => rfl | ⟨1, _⟩ => rfl | ⟨2, _⟩ => rfl)]
  -- the broadcasts keep the neuron coordinate; the iota at `c` is the word `c`
  rw [val_main_v13_apply, val_main_v12_apply, val_main_v6_apply, val_main_v3_apply, val_main_v5_apply,
    val_main_v1_apply, val_main_v2_apply, val_main_v4_apply, val_main_v0_apply, val_main_c_apply, val_main_c_0_apply]
  show Scalar.select (IntOp.cmpi .slt (BitVec.ofNat 32 c.val) 0#32) (IntOp.addi (BitVec.ofNat 32 c.val) 1024#32)
    (BitVec.ofNat 32 c.val) = _
  -- `c` is non-negative, so the normalisation leaves it
  exact select_of_nonneg _ _ (by rw [toInt_ofNat_of_lt _ c.isLt]; omega)

/-- Component 1 of the start indices at `(r, c)` is the fingerprint `data[r, c]`, where it is non-negative: the
    second piece of the concatenation, read back through its broadcast to the normalised fingerprints. -/
theorem start_col (data : IVec S8192x1024 32) (h : Cert.Membership.InRange data) (r : Fin 8192) (c : Fin 1024) :
    val_main_v15 (F := F) data (ix3 r c (1 : Fin 2)) = data (ix2 r c) := by
  unfold val_main_v15
  -- coordinate 1 on the joined axis is past the first piece's one position: the second piece, at `(r, c, 0)`
  rw [concatenate_pair_apply_right (t := S8192x1024x2) (s₁ := S8192x1024x1) (s₂ := S8192x1024x1) (2 : Fin 3)
    (val_main_v13 (F := F)) (val_main_v14 (F := F) data) concatenates_S8192x1024x1_S8192x1024x1_S8192x1024x2_d2
    (ix3 r c (1 : Fin 2)) rfl rfl (ix3 r c (0 : Fin 1))
    (fun b hb => by
      match b, hb with
      | ⟨0, _⟩, _ => rfl
      | ⟨1, _⟩, _ => rfl
      | ⟨2, _⟩, hb => exact absurd rfl hb)
    rfl]
  rw [val_main_v14_apply, val_main_v11_apply, val_main_v8_apply, val_main_v10_apply, val_main_v7_apply,
    val_main_v9_apply, val_main_c_1_apply, val_main_c_2_apply]
  -- the broadcast to `[8192, 1024, 1]` keeps the first two coordinates
  have hix : idx_main_v14 (ix3 r c (0 : Fin 1)) = ix2 r c := by
    funext a; match a with | ⟨0, _⟩ => rfl | ⟨1, _⟩ => rfl
  rw [hix]
  -- the fingerprint is non-negative, so the normalisation leaves it
  exact select_of_nonneg _ _ (h (ix2 r c)).1

/-! ## The clamps change nothing -/

/-- A neuron's number, clamped into the table's 1024 rows, is itself. -/
theorem clamp_row (c : Fin 1024) : clampPos 1024 (by decide) (BitVec.ofNat 32 c.val) = c := by
  apply Fin.ext
  show min (BitVec.ofNat 32 c.val).toInt.toNat (1024 - 1) = c.val
  rw [toInt_ofNat_of_lt _ c.isLt]
  have := c.isLt
  simp only [Int.toNat_natCast]
  omega

/-- A fingerprint in [0, 65536), clamped into the table's 65536 columns, is the column it names. -/
theorem clamp_col {d : BitVec 32} (h0 : 0 ≤ d.toInt) (h1 : d.toInt < 65536) :
    clampPos 65536 (by decide) d = Cert.Membership.col d := by
  apply Fin.ext
  rw [Cert.Membership.col_val_of_inRange h0 h1]
  obtain ⟨hlt, he⟩ := Cert.Membership.toNat_of_inRange h0 h1
  show min d.toInt.toNat (65536 - 1) = d.toNat
  rw [he]
  simp only [Int.toNat_natCast]
  omega

/-! ## The gather at a point, and the sum -/

/-- The gathered value at `(r, k)`: the table at row `k` and at the column the fingerprint `data[r, k]` names. -/
theorem gather_at (data : IVec S8192x1024 32) (table : FVec Ideal S1024x65536 .f32) (h : Cert.Membership.InRange data)
    (r : Fin 8192) (k : Fin 1024) :
    val_main_v16 (F := Ideal) data table (ix2 r k) = table (ix2 k (Cert.Membership.col (data (ix2 r k)))) := by
  unfold val_main_v16
  -- the point gather reads the table at the pair of start indices at `(r, k)`, each clamped into its axis
  refine (gather_point_apply (M := 1024) (N := 65536) (R := 8192) (C := 1024) (by decide) (by decide)
    gather_S1024x65536_S8192x1024x2_S8192x1024_n_01_n_n_01_2_11_wf table (val_main_v15 (F := Ideal) data) (ix2 r k)).trans ?_
  show table (ix2 (clampPos 1024 _ (val_main_v15 (F := Ideal) data (ix3 r k (0 : Fin 2))))
    (clampPos 65536 _ (val_main_v15 (F := Ideal) data (ix3 r k (1 : Fin 2))))) = _
  rw [start_row, start_col data h, clamp_row, clamp_col (h (ix2 r k)).1 (h (ix2 r k)).2]

/-- THE REFERENCE IS THE RESPONSE: where every fingerprint is a column, the reference's result at sample `i` is the sum
    over the neurons of the table at their fingerprints. -/
theorem reference_eq (data : IVec Cert.ReferenceIdeal.S8192x1024 32) (table : FVec Ideal Cert.ReferenceIdeal.S1024x65536 .f32)
    (h : Cert.Membership.InRange data) :
    Cert.ReferenceIdeal.Read.val_main_v17 (F := Ideal) data table = Cert.Membership.response data table := by
  funext i
  -- the reduction over the neurons: the initial value plus the sum of the gathered values of row `i`
  rw [val_main_v17_apply]
  -- the initial value is the real number 0
  have hz : (val_main_cst (F := Ideal)) (Shape.Idx.first h_S_) = 0 := Ideal.ofBits_zero_f32
  rw [hz, zero_add]
  unfold Cert.Membership.response
  refine Finset.sum_congr rfl fun k _ => ?_
  have hj : idx_main_v17 i k = ix2 (i 0) k := by
    funext a; match a with | ⟨0, _⟩ => rfl | ⟨1, _⟩ => rfl
  rw [hj]
  exact gather_at data table h (i 0) k

end Cert.ReferenceIdeal.RefValue

end
-- ==== Proof.PreRange.lean ====
/-
  The printed precondition, read back at one fingerprint.

  The precondition is the conjunction of two all-quantified tests: every entry of the table is finite, and every
  fingerprint `d` satisfies `0 ≤ d` and `d < 65536` as a signed word. Each test is printed as a reduction by `and`
  of a mask of bits over the whole array, started from 1; the precondition holding means the `and` of the two
  reductions is 1. Only the second is read here: a reduction by `and` over every axis that came out 1 met a 1 at
  every index, and the bit at index `i` is the `and` of the two signed comparisons of `data i` with the constants
  0 and 65536 (a scalar constant broadcast over the rectangle is that constant at every index).
-/
import proofs.«428686_j67147518705987_3_alg».proof.Pre_finite_inputs
import proofs.«428686_j67147518705987_3_alg».proof.Proof.Response
import Idealize.ShloMosaic.Lib.ReduceAll

noncomputable section

namespace Cert.Pre_finite_inputs.Decode

open Idealize.ShloMosaic Cert.Pre_finite_inputs

/-- The scalar shape has one index. -/
instance : Subsingleton S_.Idx := ⟨fun a b => funext fun d => d.elim0⟩

/-- Where the precondition holds, every fingerprint is a column of the table: as a signed word it lies in [0, 65536). -/
theorem inRange_of_pre {F : FTy → Type} [FloatOps F] [Cert.Pre_finite_inputs.Facts]
    (data : IVec Cert.Pre_finite_inputs.S8192x1024 32) (table : FVec F Cert.Pre_finite_inputs.S1024x65536 .f32)
    (h : Cert.Pre_finite_inputs.fn (F := F) data table = fun _ => 1#1) : Cert.Membership.InRange data := by
  intro i
  -- the precondition's one element: the `and` of the table's test and the fingerprints' test
  have h0 := congrFun h (fun d => d.elim0)
  dsimp only [fn, andi] at h0
  -- an `and` of two bits is 1 only when both are; the fingerprints' test is the second
  obtain ⟨-, h9⟩ := IntOp.andi_eq_one.1 h0
  -- a reduction by `and` over all axes that is 1 met a 1 at every index, the index `i` among them
  have hm := Host.reduce_andi_all _ _ _ _ _ h9 i
  -- the bit at `i` is the `and` of the two comparisons of `data i`
  obtain ⟨hge, hlt⟩ := IntOp.andi_eq_one.1 hm
  -- a signed comparison that is 1 orders the signed values; the broadcast constants read as 0 and 65536
  have hge' : (0#32 : BitVec 32).toInt ≤ (data i).toInt := IntOp.cmpi_sge.1 hge
  have hlt' : (data i).toInt < (65536#32 : BitVec 32).toInt := IntOp.cmpi_slt.1 hlt
  exact ⟨hge', hlt'⟩

end Cert.Pre_finite_inputs.Decode

end
-- ==== Proof.lean ====
/-
  The certificate of a membership response: `response[i] = ∑ j, table[j, data[i, j]]` over 8192 samples and 1024
  neurons, each neuron with its own row of 65536 table entries, `data[i, j]` the column ("fingerprint") sample `i`
  presents to neuron `j`. The precondition: the table's entries are finite and every fingerprint is a column of the
  table, `0 ≤ data < 65536` (of the two, the proof uses the second only).

  THE KERNEL sweeps, for each tile of 1024 samples, over the neurons eight at a time, keeping the tile's running sums
  in an accumulator that it zeroes at the first point of the sweep and writes out at the last. A neuron's entry at a
  fingerprint `d` is selected without indexing: `d` is clamped into [0, 65535] and split as `d = 256·hi + lo`, the
  neuron's row is read as a 256 × 256 matrix, a matrix product with the 0/1 indicator of `hi` picks the matrix's row
  `hi`, and a lane sum against the indicator of `lo` picks that row's entry `lo`. Over the extended reals `0 · x = 0`
  and `1 · x = x` for every `x`, so each of the two sums is its one marked term (Selection.lean), and the changes of
  float format on the way are the identity. Point by point the accumulator therefore holds the sum of the entries of
  the neurons swept so far, added in the neurons' order (Tile.lean, StepValue.lean, Sweep.lean: by induction on the
  point; Blocks.lean reads the points' blocks of the transposed fingerprints and of the table's rows as matrices), and
  each block of the result array is written once, with its samples' responses (Written.lean, KernelRun.lean).

  THE REFERENCE gathers `table[j, data[i, j]]` at the pairs (neuron, fingerprint) — each component of a pair wrapped
  once if negative and clamped into its axis, which for a fingerprint that is a column changes nothing — and sums over
  the neurons from zero (RefResponse.lean, over LibGatherPoint.lean's reading of a gather at pairs of indices).

  Both are the one function `Membership.response` of the arguments (Response.lean): the sum of the same 1024 extended
  reals, in the kernel's case grouped eight at a time, and a sum over an initial range of neurons unfolds in exactly
  that order, so not even associativity is spent. The word-level kernel and its idealization are one program text (the
  idealization rewrote nothing): `preserves` is trivial. The three frames are the programs' runs with the results
  dropped.
-/
import proofs.«428686_j67147518705987_3_alg».proof.Defs
import proofs.«428686_j67147518705987_3_alg».proof.Proof.Gen.Kernel
import proofs.«428686_j67147518705987_3_alg».proof.Proof.Gen.Kernel.Skeleton
import proofs.«428686_j67147518705987_3_alg».proof.Proof.Gen.Kernel.Launch
import proofs.«428686_j67147518705987_3_alg».proof.Proof.Gen.Kernel.Points
import proofs.«428686_j67147518705987_3_alg».proof.Proof.Gen.Kernel.Frame
import proofs.«428686_j67147518705987_3_alg».proof.Proof.Gen.KernelIdeal
import proofs.«428686_j67147518705987_3_alg».proof.Proof.Gen.KernelIdeal.Skeleton
import proofs.«428686_j67147518705987_3_alg».proof.Proof.Gen.KernelIdeal.Launch
import proofs.«428686_j67147518705987_3_alg».proof.Proof.Gen.KernelIdeal.Points
import proofs.«428686_j67147518705987_3_alg».proof.Proof.Gen.KernelIdeal.Frame
import proofs.«428686_j67147518705987_3_alg».proof.Proof.Gen.ReferenceIdeal
import proofs.«428686_j67147518705987_3_alg».proof.Proof.Gen.KernelIdeal.Value
import proofs.«428686_j67147518705987_3_alg».proof.Proof.Gen.ReferenceIdeal.Run
import proofs.«428686_j67147518705987_3_alg».proof.Proof.Gen.ReferenceIdeal.Read
import proofs.«428686_j67147518705987_3_alg».proof.Proof.Gen.Pre_finite_inputs
import proofs.«428686_j67147518705987_3_alg».proof.Proof.KernelRun
import proofs.«428686_j67147518705987_3_alg».proof.Proof.RefResponse
import proofs.«428686_j67147518705987_3_alg».proof.Proof.PreRange
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, with every fingerprint a column of the table, the idealized kernel's
    result array and the reference's both end at the response. -/
theorem algebraic : Cert.algebraic_KernelIdeal_ReferenceIdeal := by
  intro m ρ m' ρ' hpre hagree
  have hr : ∀ c : Dev Cert.KernelIdeal.nD, Cert.Membership.InRange (Cert.KernelIdeal.Sweep.data m c) := fun c =>
    Cert.Pre_finite_inputs.Decode.inRange_of_pre (F := Ideal) _ _ (hpre c)
  refine ⟨fun c => Cert.Membership.response (Cert.KernelIdeal.Sweep.data m c) (Cert.KernelIdeal.Sweep.table m c),
    Cert.KernelIdeal.Sweep.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  exact Cert.ReferenceIdeal.RefValue.reference_eq _ _ (hr c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
